-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S2x2000000 : Shape := ⟨2, ![2, 2000000]⟩
abbrev S500000 : Shape := ⟨1, ![500000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S500000x64 .f32) (main_arg1 : IVec S2x2000000 32) (main_arg2 : IVec S500000 32) (main_arg3 : FVec F S64x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S500000x64 : Shape := ⟨2, ![500000, 64]⟩
abbrev S2x2000000 : Shape := ⟨2, ![2, 2000000]⟩
abbrev S500000 : Shape := ⟨1, ![500000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S100000 : Shape := ⟨1, ![100000]⟩
abbrev S2000000x64 : Shape := ⟨2, ![2000000, 64]⟩
abbrev S100000x64 : Shape := ⟨2, ![100000, 64]⟩
abbrev S100000x1 : Shape := ⟨2, ![100000, 1]⟩
abbrev S1x64 : Shape := ⟨2, ![1, 64]⟩
abbrev S5000x64 : Shape := ⟨2, ![5000, 64]⟩
abbrev S500000x1 : Shape := ⟨2, ![500000, 1]⟩
abbrev S512x64 : Shape := ⟨2, ![512, 64]⟩
abbrev S4000x64 : Shape := ⟨2, ![4000, 64]⟩
abbrev S4000x1 : Shape := ⟨2, ![4000, 1]⟩
abbrev S4000x512 : Shape := ⟨2, ![4000, 512]⟩
abbrev S512 : Shape := ⟨1, ![512]⟩
abbrev S512x1 : Shape := ⟨2, ![512, 1]⟩
abbrev S1x1 : Shape := ⟨2, ![1, 1]⟩

abbrev nBuf : Space → Nat
  | .hbm => 145
  | .vmem => 19
  | .smem => 0
  | _ => 0

abbrev hbmTy0_0 (i : Nat) : BufTy := match i % 128 with
  | 0 => ⟨S500000x64, .f32⟩
  | 1 => ⟨S2x2000000, .i32⟩
  | 2 => ⟨S500000, .i32⟩
  | 3 => ⟨S64x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x2000000, .i32⟩
  | 10 => ⟨S2000000, .i32⟩
  | 11 => ⟨S1x2000000, .i32⟩
  | 12 => ⟨S2000000, .i32⟩
  | 13 => ⟨S_, .f32⟩
  | 14 => ⟨S2000000, .f32⟩
  | 15 => ⟨S_, .f32⟩
  | 16 => ⟨S500000, .f32⟩
  | 17 => ⟨S2000000x1, .i32⟩
  | 18 => ⟨S500000, .f32⟩
  | 19 => ⟨S_, .f32⟩
  | 20 => ⟨S100000, .f32⟩
  | 21 => ⟨S2000000x1, .i32⟩
  | 22 => ⟨S100000, .f32⟩
  | 23 => ⟨S_, .f32⟩
  | 24 => ⟨S500000, .f32⟩
  | 25 => ⟨S500000, .i1⟩
  | 26 => ⟨S_, .f32⟩
  | 27 => ⟨S500000, .f32⟩
  | 28 => ⟨S500000, .f32⟩
  | 29 => ⟨S_, .f32⟩
  | 30 => ⟨S_, .f32⟩
  | 31 => ⟨S500000, .f32⟩
  | 32 => ⟨S500000, .f32⟩
  | 33 => ⟨S_, .f32⟩
  | 34 => ⟨S100000, .f32⟩
  | 35 => ⟨S100000, .i1⟩
  | 36 => ⟨S_, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .i1⟩
  | 46 => ⟨S100000, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S_, .f32⟩
  | 57 => ⟨S100000x64, .f32⟩
  | 58 => ⟨S2000000x1, .i32⟩
  | 59 => ⟨S100000x64, .f32⟩
  | 60 => ⟨S100000x1, .f32⟩
  | 61 => ⟨S100000x64, .f32⟩
  | 62 => ⟨S100000x64, .f32⟩
  | 63 => ⟨S100000x1, .f32⟩
  | 64 => ⟨S1x64, .f32⟩
  | 65 => ⟨S100000x64, .f32⟩
  | 66 => ⟨S100000x64, .f32⟩
  | 67 => ⟨S100000x64, .f32⟩
  | 68 => ⟨S100000x64, .f32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S2000000x1, .i32⟩
  | 77 => ⟨S2000000x64, .f32⟩
  | 78 => ⟨S_, .f32⟩
  | 79 => ⟨S500000x64, .f32⟩
  | 80 => ⟨S2000000x1, .i32⟩
  | 81 => ⟨S500000x64, .f32⟩
  | 82 => ⟨S500000x1, .f32⟩
  | 83 => ⟨S500000x64, .f32⟩
  | 84 => ⟨S500000x64, .f32⟩
  | 85 => ⟨S_, .f32⟩
  | 86 => ⟨S500000x64, .f32⟩
  | 87 => ⟨S500000x64, .f32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S2000000x1, .i32⟩
  | 96 => ⟨S2000000x64, .f32⟩
  | 97 => ⟨S_, .f32⟩
  | 98 => ⟨S100000x64, .f32⟩
  | 99 => ⟨S2000000x1, .i32⟩
  | 100 => ⟨S100000x64, .f32⟩
  | 101 => ⟨S100000x1, .f32⟩
  | 102 => ⟨S100000x64, .f32⟩
  | 103 => ⟨S100000x64, .f32⟩
  | 104 => ⟨S100000x1, .f32⟩
  | 105 => ⟨S1x64, .f32⟩
  | 106 => ⟨S100000x64, .f32⟩
  | 107 => ⟨S100000x64, .f32⟩
  | 108 => ⟨S100000x64, .f32⟩
  | 109 => ⟨S100000x64, .f32⟩
  | 110 => ⟨S_, .i32⟩
  | 111 => ⟨S2000000, .i32⟩
  | 112 => ⟨S2000000, .i1⟩
  | 113 => ⟨S_, .i32⟩
  | 114 => ⟨S2000000, .i32⟩
  | 115 => ⟨S2000000, .i32⟩
  | 116 => ⟨S2000000, .i32⟩
  | 117 => ⟨S2000000x1, .i32⟩
  | 118 => ⟨S2000000x64, .f32⟩
  | 119 => ⟨S_, .f32⟩
  | 120 => ⟨S500000x64, .f32⟩
  | 121 => ⟨S2000000x1, .i32⟩
  | 122 => ⟨S500000x64, .f32⟩
  | 123 => ⟨S500000x1, .f32⟩
  | 124 => ⟨S500000x64, .f32⟩
  | 125 => ⟨S500000x64, .f32⟩
  | 126 => ⟨S500000x1, .i32⟩
  | 127 => ⟨S512x64, .f32⟩
  | _ => ⟨S500000x64, .f32⟩

abbrev hbmTy0_1 (i : Nat) : BufTy := match i % 128 with
  | 0 => ⟨S_, .f32⟩
  | 1 => ⟨S500000, .f32⟩
  | 2 => ⟨S_, .f32⟩
  | 3 => ⟨S512, .f32⟩
  | 4 => ⟨S500000x1, .i32⟩
  | 5 => ⟨S512, .f32⟩
  | 6 => ⟨S_, .f32⟩
  | 7 => ⟨S512, .f32⟩
  | 8 => ⟨S512, .f32⟩
  | 9 => ⟨S512x1, .f32⟩
  | 10 => ⟨S512x64, .f32⟩
  | 11 => ⟨S512x64, .f32⟩
  | 12 => ⟨S512x1, .f32⟩
  | 13 => ⟨S1x1, .f32⟩
  | 14 => ⟨S512x1, .f32⟩
  | 15 => ⟨S512x1, .f32⟩
  | 16 => ⟨S512, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S4000x64, .f32⟩
  | .local _ .vmem, ⟨15, _⟩ => ⟨S4000x64, .f32⟩
  | .local _ .vmem, ⟨16, _⟩ => ⟨S4000x1, .i32⟩
  | .local _ .vmem, ⟨17, _⟩ => ⟨S4000x1, .i32⟩
  | .local _ .vmem, ⟨18, _⟩ => ⟨S512x64, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v20 : Ref sig .tc := ⟨.hbm, 42, rfl⟩
abbrev main_cst_8 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c : Ref sig .tc := ⟨.hbm, 47, rfl⟩
abbrev main_v24 : Ref sig .tc := ⟨.hbm, 48, rfl⟩
abbrev main_v25 : Ref sig .tc := ⟨.hbm, 49, rfl⟩
abbrev main_c_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_10 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call2_cst : Ref sig .tc := ⟨.hbm, 85, rfl⟩
abbrev main_call2_v0 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_c_15 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_16 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_17 : Ref sig .tc := ⟨.hbm, 110, rfl⟩
abbrev main_v76 : Ref sig .tc := ⟨.hbm, 111, rfl⟩
abbrev main_v77 : Ref sig .tc := ⟨.hbm, 112, rfl⟩
abbrev main_c_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_19 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_cst_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S500000 : S_.BroadcastsInDim S500000 (![] : Fin 0 → Fin S500000.rank)
  bcast_S2000000_S2000000x1_0 : S2000000.BroadcastsInDim S2000000x1 (![0] : Fin 1 → Fin S2000000x1.rank)
  bcast_S_S100000 : S_.BroadcastsInDim S100000 (![] : Fin 0 → Fin S100000.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S500000x64 : S_.BroadcastsInDim S500000x64 (![] : Fin 0 → Fin S500000x64.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  shapeCasts_S500000_S500000x1 : S500000.ShapeCasts S500000x1
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x512_d1_w32 : S4000x512.Iotas .tc 32 [1]
  broadcasts_S4000x1_S4000x512 : S4000x1.Broadcasts S4000x512
  natLt_1_32 : 1 < 32
  shapeCasts_S512x64_S512x64 : S512x64.ShapeCasts S512x64
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S500000_S2000000x1_S2000000_n_0_0_1_wf : ScatterDims.WF S500000 S2000000x1 S2000000 [] [0] [0] 1
  scatter_S100000_S2000000x1_S2000000_n_0_0_1_wf : ScatterDims.WF S100000 S2000000x1 S2000000 [] [0] [0] 1
  gather_S500000x64_S2000000x1_S2000000x64_1_0_n_n_0_1_164_wf : GatherDims.WF S500000x64 S2000000x1 S2000000x64 [1] [0] [] [0] [] 1 ![1, 64]
  scatter_S100000x64_S2000000x1_S2000000x64_1_0_0_1_wf : ScatterDims.WF S100000x64 S2000000x1 S2000000x64 [1] [0] [0] 1
  dot_S5000x64_S64x64_S5000x64_1_0_0_1_n_n_wf : DotDims.WF S5000x64 S64x64 S5000x64 [1] [0] [0] [1] [] []
  gather_S100000x64_S2000000x1_S2000000x64_1_0_n_n_0_1_164_wf : GatherDims.WF S100000x64 S2000000x1 S2000000x64 [1] [0] [] [0] [] 1 ![1, 64]
  scatter_S500000x64_S2000000x1_S2000000x64_1_0_0_1_wf : ScatterDims.WF S500000x64 S2000000x1 S2000000x64 [1] [0] [0] 1
  dot_S4000x512_S4000x64_S512x64_0_0_1_1_n_n_wf : DotDims.WF S4000x512 S4000x64 S512x64 [0] [0] [1] [1] [] []
  scatter_S512_S500000x1_S500000_n_0_0_1_wf : ScatterDims.WF S512 S500000x1 S500000 [] [0] [0] 1
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S500000x64.size a
  hwx2_0 : ∀ i : grid2.Coords, EltTy.bits .f32 = 32 ∨ (Rect.block (s := S500000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S500000x1.size a
  hwx2_1 : ∀ i : grid2.Coords, EltTy.bits .i32 = 32 ∨ (Rect.block (s := S500000x1) S4000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S512x64.size a
  hwx2_2 : ∀ i : grid2.Coords, EltTy.bits .f32 = 32 ∨ (Rect.block (s := S512x64) S512x64.size (cc2_transform_2 i) (hinb2_2 i)).WholeWords (EltTy.packing .f32)

variable [Facts₀]

def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S4000x512_S4000x64_S512x64_0_0_1_1_n_n : DotDims S4000x512 S4000x64 S512x64 where
  lhsContracting := [0]
  rhsContracting := [0]
  lhsNonContracting := [1]
  rhsNonContracting := [1]
  lhsBatch := []
  rhsBatch := []
  wf := dot_S4000x512_S4000x64_S512x64_0_0_1_1_n_n_wf
def scatter_S512_S500000x1_S500000_n_0_0_1 : ScatterDims S512 S500000x1 S500000 where
  updateWindowDims := []
  insertedWindowDims := [0]
  scatterDimsToOperandDims := [0]
  indexVectorDim := 1
  wf := scatter_S512_S500000x1_S500000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v36) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v69) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v75) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v88) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S512x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S500000x64 : Shape := ⟨2, ![500000, 64]⟩
abbrev S2x2000000 : Shape := ⟨2, ![2, 2000000]⟩
abbrev S500000 : Shape := ⟨1, ![500000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x2000000 : Shape := ⟨2, ![1, 2000000]⟩
abbrev S2000000 : Shape := ⟨1, ![2000000]⟩
abbrev S1x64 : Shape := ⟨2, ![1, 64]⟩
abbrev S_ : Shape := ⟨0, ![]⟩
abbrev S2000000x1 : Shape := ⟨2, ![2000000, 1]⟩
abbrev S100000 : Shape := ⟨1, ![100000]⟩
abbrev S2000000x64 : Shape := ⟨2, ![2000000, 64]⟩
abbrev S100000x64 : Shape := ⟨2, ![100000, 64]⟩
abbrev S100000x1 : Shape := ⟨2, ![100000, 1]⟩
abbrev S500000x1 : Shape := ⟨2, ![500000, 1]⟩
abbrev S512x64 : Shape := ⟨2, ![512, 64]⟩
abbrev S512 : Shape := ⟨1, ![512]⟩
abbrev S512x1 : Shape := ⟨2, ![512, 1]⟩
abbrev S1x1 : Shape := ⟨2, ![1, 1]⟩

abbrev nBuf : Space → Nat
  | .hbm => 172
  | .vmem => 0
  | .smem => 0
  | _ => 0

abbrev hbmTy0_0 (i : Nat) : BufTy := match i % 128 with
  | 0 => ⟨S500000x64, .f32⟩
  | 1 => ⟨S2x2000000, .i32⟩
  | 2 => ⟨S500000, .i32⟩
  | 3 => ⟨S64x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x2000000, .i32⟩
  | 10 => ⟨S2000000, .i32⟩
  | 11 => ⟨S1x2000000, .i32⟩
  | 12 => ⟨S2000000, .i32⟩
  | 13 => ⟨S500000x64, .f32⟩
  | 14 => ⟨S1x64, .f32⟩
  | 15 => ⟨S500000x64, .f32⟩
  | 16 => ⟨S500000x64, .f32⟩
  | 17 => ⟨S_, .f32⟩
  | 18 => ⟨S2000000, .f32⟩
  | 19 => ⟨S_, .f32⟩
  | 20 => ⟨S500000, .f32⟩
  | 21 => ⟨S2000000x1, .i32⟩
  | 22 => ⟨S500000, .f32⟩
  | 23 => ⟨S_, .f32⟩
  | 24 => ⟨S100000, .f32⟩
  | 25 => ⟨S2000000x1, .i32⟩
  | 26 => ⟨S100000, .f32⟩
  | 27 => ⟨S_, .f32⟩
  | 28 => ⟨S500000, .f32⟩
  | 29 => ⟨S500000, .i1⟩
  | 30 => ⟨S_, .f32⟩
  | 31 => ⟨S500000, .f32⟩
  | 32 => ⟨S500000, .f32⟩
  | 33 => ⟨S_, .f32⟩
  | 34 => ⟨S_, .f32⟩
  | 35 => ⟨S500000, .f32⟩
  | 36 => ⟨S500000, .f32⟩
  | 37 => ⟨S_, .f32⟩
  | 38 => ⟨S100000, .f32⟩
  | 39 => ⟨S100000, .i1⟩
  | 40 => ⟨S_, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S_, .f32⟩
  | 57 => ⟨S100000x64, .f32⟩
  | 58 => ⟨S2000000x1, .i32⟩
  | 59 => ⟨S100000x64, .f32⟩
  | 60 => ⟨S100000x1, .f32⟩
  | 61 => ⟨S100000x64, .f32⟩
  | 62 => ⟨S100000x64, .f32⟩
  | 63 => ⟨S_, .i32⟩
  | 64 => ⟨S2000000, .i32⟩
  | 65 => ⟨S2000000, .i1⟩
  | 66 => ⟨S_, .i32⟩
  | 67 => ⟨S2000000, .i32⟩
  | 68 => ⟨S2000000, .i32⟩
  | 69 => ⟨S2000000, .i32⟩
  | 70 => ⟨S2000000x1, .i32⟩
  | 71 => ⟨S2000000x64, .f32⟩
  | 72 => ⟨S_, .f32⟩
  | 73 => ⟨S500000x64, .f32⟩
  | 74 => ⟨S2000000x1, .i32⟩
  | 75 => ⟨S500000x64, .f32⟩
  | 76 => ⟨S500000x1, .f32⟩
  | 77 => ⟨S500000x64, .f32⟩
  | 78 => ⟨S500000x64, .f32⟩
  | 79 => ⟨S_, .f32⟩
  | 80 => ⟨S500000x64, .f32⟩
  | 81 => ⟨S500000x64, .f32⟩
  | 82 => ⟨S500000x64, .f32⟩
  | 83 => ⟨S1x64, .f32⟩
  | 84 => ⟨S500000x64, .f32⟩
  | 85 => ⟨S500000x64, .f32⟩
  | 86 => ⟨S_, .f32⟩
  | 87 => ⟨S2000000, .f32⟩
  | 88 => ⟨S_, .f32⟩
  | 89 => ⟨S500000, .f32⟩
  | 90 => ⟨S2000000x1, .i32⟩
  | 91 => ⟨S500000, .f32⟩
  | 92 => ⟨S_, .f32⟩
  | 93 => ⟨S100000, .f32⟩
  | 94 => ⟨S2000000x1, .i32⟩
  | 95 => ⟨S100000, .f32⟩
  | 96 => ⟨S_, .f32⟩
  | 97 => ⟨S500000, .f32⟩
  | 98 => ⟨S500000, .i1⟩
  | 99 => ⟨S_, .f32⟩
  | 100 => ⟨S500000, .f32⟩
  | 101 => ⟨S500000, .f32⟩
  | 102 => ⟨S_, .f32⟩
  | 103 => ⟨S_, .f32⟩
  | 104 => ⟨S500000, .f32⟩
  | 105 => ⟨S500000, .f32⟩
  | 106 => ⟨S_, .f32⟩
  | 107 => ⟨S100000, .f32⟩
  | 108 => ⟨S100000, .i1⟩
  | 109 => ⟨S_, .f32⟩
  | 110 => ⟨S100000, .f32⟩
  | 111 => ⟨S100000, .f32⟩
  | 112 => ⟨S_, .f32⟩
  | 113 => ⟨S_, .f32⟩
  | 114 => ⟨S100000, .f32⟩
  | 115 => ⟨S100000, .f32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S2000000x1, .i32⟩
  | 124 => ⟨S2000000x64, .f32⟩
  | 125 => ⟨S_, .f32⟩
  | 126 => ⟨S100000x64, .f32⟩
  | 127 => ⟨S2000000x1, .i32⟩
  | _ => ⟨S500000x64, .f32⟩

abbrev hbmTy0_1 (i : Nat) : BufTy := match i % 128 with
  | 0 => ⟨S100000x64, .f32⟩
  | 1 => ⟨S100000x1, .f32⟩
  | 2 => ⟨S100000x64, .f32⟩
  | 3 => ⟨S100000x64, .f32⟩
  | 4 => ⟨S_, .i32⟩
  | 5 => ⟨S2000000, .i32⟩
  | 6 => ⟨S2000000, .i1⟩
  | 7 => ⟨S_, .i32⟩
  | 8 => ⟨S2000000, .i32⟩
  | 9 => ⟨S2000000, .i32⟩
  | 10 => ⟨S2000000, .i32⟩
  | 11 => ⟨S2000000x1, .i32⟩
  | 12 => ⟨S2000000x64, .f32⟩
  | 13 => ⟨S_, .f32⟩
  | 14 => ⟨S500000x64, .f32⟩
  | 15 => ⟨S2000000x1, .i32⟩
  | 16 => ⟨S500000x64, .f32⟩
  | 17 => ⟨S500000x1, .f32⟩
  | 18 => ⟨S500000x64, .f32⟩
  | 19 => ⟨S500000x64, .f32⟩
  | 20 => ⟨S_, .f32⟩
  | 21 => ⟨S500000x64, .f32⟩
  | 22 => ⟨S500000x64, .f32⟩
  | 23 => ⟨S_, .f32⟩
  | 24 => ⟨S512x64, .f32⟩
  | 25 => ⟨S500000x1, .i32⟩
  | 26 => ⟨S512x64, .f32⟩
  | 27 => ⟨S_, .f32⟩
  | 28 => ⟨S500000, .f32⟩
  | 29 => ⟨S_, .f32⟩
  | 30 => ⟨S512, .f32⟩
  | 31 => ⟨S500000x1, .i32⟩
  | 32 => ⟨S512, .f32⟩
  | 33 => ⟨S_, .f32⟩
  | 34 => ⟨S512, .f32⟩
  | 35 => ⟨S512, .f32⟩
  | 36 => ⟨S512x1, .f32⟩
  | 37 => ⟨S512x64, .f32⟩
  | 38 => ⟨S512x64, .f32⟩
  | 39 => ⟨S512x1, .f32⟩
  | 40 => ⟨S1x1, .f32⟩
  | 41 => ⟨S512x1, .f32⟩
  | 42 => ⟨S512x1, .f32⟩
  | 43 => ⟨S512, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_c_8 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_cst : Ref sig .tc := ⟨.hbm, 79, rfl⟩
abbrev main_call2_v0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_16 : Ref sig .tc := ⟨.hbm, 96, rfl⟩
abbrev main_v63 : Ref sig .tc := ⟨.hbm, 97, rfl⟩
abbrev main_v64 : Ref sig .tc := ⟨.hbm, 98, rfl⟩
abbrev main_cst_17 : Ref sig .tc := ⟨.hbm, 99, rfl⟩
abbrev main_v65 : Ref sig .tc := ⟨.hbm, 100, rfl⟩
abbrev main_v66 : Ref sig .tc := ⟨.hbm, 101, rfl⟩
abbrev main_cst_18 : Ref sig .tc := ⟨.hbm, 102, rfl⟩
abbrev main_call3_v0 : Ref sig .tc := ⟨.hbm, 103, rfl⟩
abbrev main_call3_v1 : Ref sig .tc := ⟨.hbm, 104, rfl⟩
abbrev main_v67 : Ref sig .tc := ⟨.hbm, 105, rfl⟩
abbrev main_cst_19 : Ref sig .tc := ⟨.hbm, 106, rfl⟩
abbrev main_v68 : Ref sig .tc := ⟨.hbm, 107, rfl⟩
abbrev main_v69 : Ref sig .tc := ⟨.hbm, 108, rfl⟩
abbrev main_cst_20 : Ref sig .tc := ⟨.hbm, 109, rfl⟩
abbrev main_v70 : Ref sig .tc := ⟨.hbm, 110, rfl⟩
abbrev main_v71 : Ref sig .tc := ⟨.hbm, 111, rfl⟩
abbrev main_cst_21 : Ref sig .tc := ⟨.hbm, 112, rfl⟩
abbrev main_call4_v0 : Ref sig .tc := ⟨.hbm, 113, rfl⟩
abbrev main_call4_v1 : Ref sig .tc := ⟨.hbm, 114, rfl⟩
abbrev main_v72 : Ref sig .tc := ⟨.hbm, 115, rfl⟩
abbrev main_c_22 : Ref sig .tc := ⟨.hbm, 116, rfl⟩
abbrev main_v73 : Ref sig .tc := ⟨.hbm, 117, rfl⟩
abbrev main_v74 : Ref sig .tc := ⟨.hbm, 118, rfl⟩
abbrev main_c_23 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_24 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_c_25 : Ref sig .tc := ⟨.hbm, 132, rfl⟩
abbrev main_v86 : Ref sig .tc := ⟨.hbm, 133, rfl⟩
abbrev main_v87 : Ref sig .tc := ⟨.hbm, 134, rfl⟩
abbrev main_c_26 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_27 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_call5_cst : Ref sig .tc := ⟨.hbm, 148, rfl⟩
abbrev main_call5_v0 : Ref sig .tc := ⟨.hbm, 149, rfl⟩
abbrev main_v99 : Ref sig .tc := ⟨.hbm, 150, rfl⟩
abbrev main_cst_28 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_29 : Ref sig .tc := ⟨.hbm, 155, rfl⟩
abbrev main_v103 : Ref sig .tc := ⟨.hbm, 156, rfl⟩
abbrev main_cst_30 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_31 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S2000000 : S_.BroadcastsInDim S2000000 (![] : Fin 0 → Fin S2000000.rank)
  bcast_S_S500000 : S_.BroadcastsInDim S500000 (![] : Fin 0 → Fin S500000.rank)
  bcast_S2000000_S2000000x1_0 : S2000000.BroadcastsInDim S2000000x1 (![0] : Fin 1 → Fin S2000000x1.rank)
  bcast_S_S100000 : S_.BroadcastsInDim S100000 (![] : Fin 0 → Fin S100000.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S500000x64 : S_.BroadcastsInDim S500000x64 (![] : Fin 0 → Fin S500000x64.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S500000x64_S64x64_S500000x64_1_0_0_1_n_n_wf : DotDims.WF S500000x64 S64x64 S500000x64 [1] [0] [0] [1] [] []
  scatter_S500000_S2000000x1_S2000000_n_0_0_1_wf : ScatterDims.WF S500000 S2000000x1 S2000000 [] [0] [0] 1
  scatter_S100000_S2000000x1_S2000000_n_0_0_1_wf : ScatterDims.WF S100000 S2000000x1 S2000000 [] [0] [0] 1
  gather_S500000x64_S2000000x1_S2000000x64_1_0_n_n_0_1_164_wf : GatherDims.WF S500000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S2000000x1_S2000000x64_1_0_n_n_0_1_164_wf : GatherDims.WF S100000x64 S2000000x1 S2000000x64 [1] [0] [] [0] [] 1 ![1, 64]
  scatter_S500000x64_S2000000x1_S2000000x64_1_0_0_1_wf : ScatterDims.WF S500000x64 S2000000x1 S2000000x64 [1] [0] [0] 1
  scatter_S512x64_S500000x1_S500000x64_1_0_0_1_wf : ScatterDims.WF S512x64 S500000x1 S500000x64 [1] [0] [0] 1
  scatter_S512_S500000x1_S500000_n_0_0_1_wf : ScatterDims.WF S512 S500000x1 S500000 [] [0] [0] 1
  dot_S512x64_S64x1_S512x1_1_0_0_1_n_n_wf : DotDims.WF S512x64 S64x1 S512x1 [1] [0] [0] [1] [] []

variable [Facts₀]

def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def scatter_S512x64_S500000x1_S500000x64_1_0_0_1 : ScatterDims S512x64 S500000x1 S500000x64 where
  updateWindowDims := [1]
  insertedWindowDims := [0]
  scatterDimsToOperandDims := [0]
  indexVectorDim := 1
  wf := scatter_S512x64_S500000x1_S500000x64_1_0_0_1_wf
def scatter_S512_S500000x1_S500000_n_0_0_1 : ScatterDims S512 S500000x1 S500000 where
  updateWindowDims := []
  insertedWindowDims := [0]
  scatterDimsToOperandDims := [0]
  indexVectorDim := 1
  wf := scatter_S512_S500000x1_S500000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.RefSide.lean ====
/-
  The reference program's run and its operations read one at a time, gathered under one name for the
  modules that compare the two programs.
-/
import proofs.«418423_j6476810682471_2_alg».proof.Proof.RefRun
import proofs.«418423_j6476810682471_2_alg».proof.Proof.RefRead
-- ==== Proof.KTerms.lean ====
/-
  The two arrays a projection call is handed, as functions of a layer's input `h`, the incidence list `x1` and the
  bias `b`, written with the reference's own stages for everything the two programs share (the column scatter
  indices, the clamped row gather indices, the hyperedge degrees and their guarded reciprocals):

  * `kS h x1`: the rows of `h` gathered by node, summed per hyperedge, scaled by the hyperedge's inverse degree;
  * `kBias b x1`: the bias row, kept for a hyperedge of positive degree and zeroed for an empty one.
-/
import proofs.«418423_j6476810682471_2_alg».proof.Proof.RefRead

noncomputable section

namespace Cert.Bridge

open Cert.ReferenceIdeal Cert.ReferenceIdeal.Gen Cert.ReferenceIdeal.ReadP Idealize.ShloMosaic

variable {F : FTy → Type} [FloatOps F]

/-- Node rows gathered along the incidences, summed per hyperedge, times the inverse hyperedge degree. -/
def kS (h : FVec F S500000x64 .f32) (x1 : IVec S2x2000000 32) : FVec F S100000x64 .f32 :=
  mulf (Host.scatterAdd scatter_S100000x64_S2000000x1_S2000000x64_1_0_0_1 (val_main_v32 (F := F)) (val_main_v33 (F := F) x1)
      (Host.gather gather_S500000x64_S2000000x1_S2000000x64_1_0_n_n_0_1_164 h (val_main_v30 (F := F) x1)))
    (val_main_v36 (F := F) x1)

/-- The bias row gated per hyperedge: `[degree > 0]` as a float, times the bias. -/
def kBias (b : FVec F S64 .f32) (x1 : IVec S2x2000000 32) : FVec F S100000x64 .f32 :=
  mulf
    (broadcastInDim S100000x64 ![0, 1] bcast_S100000x1_S100000x64_0_1
      (broadcastInDim S100000x1 ![0] bcast_S100000_S100000x1_0
        (uitofp (F := F) .f32 (cmpf (F := F) .ogt (val_main_v14 (F := F) x1) (val_main_v20 (F := F))))))
    (broadcastInDim S100000x64 ![0, 1] (by decide : S1x64.BroadcastsInDim S100000x64 (![0, 1] : Fin 2 → Fin S100000x64.rank))
      (broadcastInDim S1x64 ![1] bcast_S64_S1x64_1 b))

end Cert.Bridge

end
-- ==== Proof.Spec.lean ====
/-
  The vocabulary the comparison of the two programs is written in, at the ideal instance (an array of floats is a
  function from its index set to the extended reals).

  * `hedgeLinear s w bias`: a row-by-row linear map plus a bias, entry (e, f) = Σ_i s[e, i] · w[i, f] + bias[e, f]
    — what one projection call computes over all its row blocks together.
  * `poolSum h b`: entry (g, f) = Σ_n [b[n] = g] · max(h[n, f], 0) — the rectified rows of `h` summed per label,
    a label outside 0 … 511 contributing to no row — what the pooling call accumulates over all its row blocks.
  * `AllReal v`: every entry of `v` is a real number (neither +∞ nor −∞).
-/
import Idealize.ShloMosaic.PureOps.Ideal
import Idealize.ShloMosaic.Lib.ValueIdx

noncomputable section

namespace Cert.Spec

open Idealize.ShloMosaic Idealize.ShloMosaic.ValueIdx

/-- Every entry is a real number. -/
def AllReal {s : Shape} (v : s.Idx → EReal) : Prop := ∀ i, v i ≠ ⊤ ∧ v i ≠ ⊥

/-- Rows of `s` mapped through `w`, plus `bias`: entry (e, f) is Σ_i s[e, i] · w[i, f] + bias[e, f]. -/
def hedgeLinear (s : FVec Ideal ⟨2, ![100000, 64]⟩ .f32) (w : FVec Ideal ⟨2, ![64, 64]⟩ .f32)
    (bias : FVec Ideal ⟨2, ![100000, 64]⟩ .f32) : FVec Ideal ⟨2, ![100000, 64]⟩ .f32 :=
  fun j => (∑ i : Fin 64, s (ix2 (j 0) i) * w (ix2 i (j 1))) + bias j

/-- The rectified rows of `h` summed per label: entry (g, f) is Σ_n [b[n, 0] = g] · max(h[n, f], 0). -/
def poolSum (h : FVec Ideal ⟨2, ![500000, 64]⟩ .f32) (b : IVec ⟨2, ![500000, 1]⟩ 32) :
    FVec Ideal ⟨2, ![512, 64]⟩ .f32 :=
  fun j => ∑ n : Fin 500000,
    (if b (ix2 n (0 : Fin 1)) = BitVec.ofNat 32 (j 0).val then (1 : EReal) else 0) * max (h (ix2 n (j 1))) 0

end Cert.Spec

end
-- ==== Proof.Region01.lean ====
/-
  What the two projection calls leave in their output arrays, at the ideal instance, whatever the buffers hold when
  the call is entered (`V`). Each call walks 20 blocks of 5000 hyperedge rows; a block of the output is the block of
  the aggregated rows times the whole 64 × 64 weight matrix (the matrix unit's product into a zero accumulator: a
  plain sum over the 64 input channels; the bf16 format changes are the identity on extended reals) plus the block
  of the bias. The blocks tile the array, so the array after the call is `hedgeLinear` of the three input arrays.
-/
import proofs.«418423_j6476810682471_2_alg».proof.Proof.Gen.KernelIdeal.Frame
import proofs.«418423_j6476810682471_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx
open Cert.Spec

variable (V : (c : Dev nD) → (b : Ref sig .tc) → Buf (Elt Ideal) ((c : Thread nD τ).loc b))

/-! ## The matrix product at an entry

Both calls use the same product: a [5000, 64] block times the [64, 64] matrix, contracting the block's axis 1 with the
matrix's axis 0. -/

/-- The product's operand indices, axis by axis: the left operand is read at (row of the output, contraction
    position), the right operand at (contraction position, column of the output). -/
theorem lhs_row (j : S5000x64.Idx) (k : dot_S5000x64_S64x64_S5000x64_1_0_0_1_n_n.contr.Idx) :
    (dot_S5000x64_S64x64_S5000x64_1_0_0_1_n_n.lhsIdx j k 0).val = (j 0).val := by
  unfold DotDims.lhsIdx
  simp [dot_S5000x64_S64x64_S5000x64_1_0_0_1_n_n]
  rfl

theorem lhs_contr (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single (cl := 1) rfl j k

theorem rhs_contr (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single (cr := 0) rfl j k

theorem rhs_col (j : S5000x64.Idx) (k : dot_S5000x64_S64x64_S5000x64_1_0_0_1_n_n.contr.Idx) :
    (dot_S5000x64_S64x64_S5000x64_1_0_0_1_n_n.rhsIdx j k 1).val = (j 1).val := by
  unfold DotDims.rhsIdx
  simp [dot_S5000x64_S64x64_S5000x64_1_0_0_1_n_n]
  rfl

/-- The block product into a zero accumulator, at an entry: the sum over the 64 input channels of the products of
    the block's row and the matrix's column. -/
theorem matmul_entry (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ i : Fin 64, a (ix2 p i) * b (ix2 i q) := by
  show FloatOps.matmul _ none a b _ (ix2 p q) = _
  rw [Ideal.matmul_constant_zero_apply,
    ← Equiv.sum_comp (contrEquiv1 dot_S5000x64_S64x64_S5000x64_1_0_0_1_n_n 64 rfl rfl).symm]
  refine Finset.sum_congr rfl fun i _ => ?_
  have hk := contrEquiv1_symm_val dot_S5000x64_S64x64_S5000x64_1_0_0_1_n_n 64 rfl rfl i
  have hl : dot_S5000x64_S64x64_S5000x64_1_0_0_1_n_n.lhsIdx (ix2 p q)
      ((contrEquiv1 dot_S5000x64_S64x64_S5000x64_1_0_0_1_n_n 64 rfl rfl).symm i) = ix2 p i := by
    funext ax; apply Fin.ext
    match ax with
    | ⟨0, _⟩ => exact lhs_row _ _
    | ⟨1, _⟩ => exact (lhs_contr _ _).trans hk
  have hr : dot_S5000x64_S64x64_S5000x64_1_0_0_1_n_n.rhsIdx (ix2 p q)
      ((contrEquiv1 dot_S5000x64_S64x64_S5000x64_1_0_0_1_n_n 64 rfl rfl).symm i) = ix2 i q := by
    funext ax; apply Fin.ext
    match ax with
    | ⟨0, _⟩ => exact (rhs_contr _ _).trans hk
    | ⟨1, _⟩ => exact rhs_col _ _
  rw [hl, hr]

/-- A block's stores and loads start at offset zero on both axes. -/
theorem zero_off : (![0, 0] : Fin 2 → Nat) = fun _ => 0 := funext fun a => by fin_cases a <;> rfl

/-! ## The first projection call -/

/-- The body's result at an entry of a block: the block's row of aggregated values times the weight matrix's column,
    plus the bias entry. The changes of float format and the casts to the same shape are the identity on extended
    reals. -/
theorem pay0_entry (x0 : Vec Ideal S5000x64 .f32) (x1 : Vec Ideal S64x64 .f32) (x2 : Vec Ideal S5000x64 .f32)
    (p : Fin 5000) (q : Fin 64) :
    k0_pay1 (F := Ideal) x0 x1 x2 (ix2 p q) = (∑ i : Fin 64, x0 (ix2 p i) * x1 (ix2 i q)) + x2 (ix2 p q) := by
  unfold k0_pay1
  rw [addf_apply, shapeCast_self, shapeCast_self, matmul_entry]
  rfl

/-- One block of the output, entry by entry: when the three loaded blocks are row block `n` of the aggregated rows,
    the whole weight matrix and row block `n` of the bias, the body's result at (p, q) is `hedgeLinear` of the arrays
    at row `n · 5000 + p`, column `q`. -/
theorem block0_entry (A B : FVec Ideal S100000x64 .f32) (W : FVec Ideal S64x64 .f32)
    (x0 x2 : Vec Ideal S5000x64 .f32) (x1 : Vec Ideal S64x64 .f32) (n : Nat) (hn : n < 20)
    (h0 : ∀ (p : Fin 5000) (i : Fin 64), x0 (ix2 p i) = A (ix2 (⟨n * 5000 + p.val, by omega⟩ : Fin 100000) i))
    (h1 : ∀ (i q : Fin 64), x1 (ix2 i q) = W (ix2 i q))
    (h2 : ∀ (p : Fin 5000) (q : Fin 64), x2 (ix2 p q) = B (ix2 (⟨n * 5000 + p.val, by omega⟩ : Fin 100000) q))
    (p : Fin 5000) (q : Fin 64) :
    k0_pay1 (F := Ideal) x0 x1 x2 (ix2 p q) = hedgeLinear A W B (ix2 (⟨n * 5000 + p.val, by omega⟩ : Fin 100000) q) := by
  rw [pay0_entry]
  unfold hedgeLinear
  simp only [h0, h1, h2]

/-- The index maps over the grid: point `t` takes row block `t` of the aggregated rows, of the bias and of the
    output, and the whole weight matrix. -/
theorem idx_facts0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `hedgeLinear` of the three input arrays: an entry (p, q) of a block
    sits in its array at row (block index) · 5000 + p and column q, for the inputs and for the output alike. -/
theorem flushed0_eq (c : Dev nD) (t : Fin cfg0.N) :
    (dat0 (F := Ideal) V c).flushed 3 t = ((cfg0.win 3).blk t).view.read (Elt Ideal)
      (hedgeLinear (V c main_v36) (V c main_arg3) (V c main_v41)) := by
  show (cfg0.win 3).cut (grid0.coords t) ((dat0 V c).after 3 t) = _
  rw [after0_3]
  unfold out0_3
  rw [View.canon_unit_zero zero_off]
  simp only [View.ld_unit_zero (S := S5000x64) zero_off, View.ld_unit_zero (S := S64x64) zero_off]
  obtain ⟨e30, e31, e00, e01, e10, e11, e20, e21⟩ := idx_facts0 t
  have hn : win0_3.index t (0 : Fin 2) < 20 := by
    have ht : t.val < cfg0.N := t.isLt
    have hN : cfg0.N = 20 := N_0
    omega
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = hedgeLinear (V c main_v36) (V c main_arg3) (V c main_v41) (((cfg0.win 3).blk t).view.emb (ix2 p q))
  refine (block0_entry (V c main_v36) (V c main_v41) (V c main_arg3) (iblk0 V c 0 t) (iblk0 V c 2 t) (iblk0 V c 1 t)
    (win0_3.index t (0 : Fin 2)) hn ?_ ?_ ?_ p q).trans ?_
  · intro p i
    show V c main_v36 (((cfg0.win 0).blk t).view.emb (ix2 p i)) = V c main_v36 _
    refine congrArg _ (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 64 + 1 * i.val = i.val; omega
  · intro i q
    show V c main_arg3 (((cfg0.win 1).blk t).view.emb (ix2 i q)) = V c main_arg3 _
    refine congrArg _ (funext fun a => Fin.ext ?_)
    match a with
    | ⟨0, _⟩ => show win0_1.index t (0 : Fin 2) * 64 + 1 * i.val = i.val; omega
    | ⟨1, _⟩ => show win0_1.index t (1 : Fin 2) * 64 + 1 * q.val = q.val; omega
  · intro p q
    show V c main_v41 (((cfg0.win 2).blk t).view.emb (ix2 p q)) = V c main_v41 _
    refine congrArg _ (funext fun a => Fin.ext ?_)
    match a with
    | ⟨0, _⟩ => show win0_2.index t (0 : Fin 2) * 5000 + 1 * p.val = win0_3.index t (0 : Fin 2) * 5000 + p.val; omega
    | ⟨1, _⟩ => show win0_2.index t (1 : Fin 2) * 64 + 1 * q.val = q.val; omega
  · refine congrArg _ (funext fun a => Fin.ext ?_)
    match a with
    | ⟨0, _⟩ => show win0_3.index t (0 : Fin 2) * 5000 + p.val = win0_3.index t (0 : Fin 2) * 5000 + 1 * p.val; omega
    | ⟨1, _⟩ => show q.val = win0_3.index t (1 : Fin 2) * 64 + 1 * q.val; omega

/-- An entry of the array lies in point `t`'s block iff each coordinate lies in the block's range on its axis. -/
theorem mem_blk0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v42).slice (win0_3.rect t)).set ↔ _
  rw [View.set_slice_whole, Rect.mem_set_unit]
  exact Iff.rfl

/-- The 20 blocks of 5000 rows tile the 100000 rows: row `r` lies in the block of point `r / 5000`. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by omega⟩, rfl⟩
  obtain ⟨e30, e31, -⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

/-- After the first projection call its output array is `hedgeLinear` of its three input arrays. -/
theorem arr0 (c : Dev nD) :
    (dat0 (F := Ideal) V c).arrAt 3 cfg0.N = hedgeLinear (V c main_v36) (V c main_arg3) (V c main_v41) :=
  (dat0 (F := Ideal) V c).arrAt_eq_of_cover 3 (hedgeLinear (V c main_v36) (V c main_arg3) (V c main_v41))
    (fun t _ => flushed0_eq V c t) cover0

/-! ## The second projection call -/

/-- The body's result at an entry of a block: the block's row of aggregated values times the weight matrix's column,
    plus the bias entry. The changes of float format and the casts to the same shape are the identity on extended
    reals. -/
theorem pay1_entry (x0 : Vec Ideal S5000x64 .f32) (x1 : Vec Ideal S64x64 .f32) (x2 : Vec Ideal S5000x64 .f32)
    (p : Fin 5000) (q : Fin 64) :
    k1_pay1 (F := Ideal) x0 x1 x2 (ix2 p q) = (∑ i : Fin 64, x0 (ix2 p i) * x1 (ix2 i q)) + x2 (ix2 p q) := by
  unfold k1_pay1
  rw [addf_apply, shapeCast_self, shapeCast_self, matmul_entry]
  rfl

/-- One block of the output, entry by entry: when the three loaded blocks are row block `n` of the aggregated rows,
    the whole weight matrix and row block `n` of the bias, the body's result at (p, q) is `hedgeLinear` of the arrays
    at row `n · 5000 + p`, column `q`. -/
theorem block1_entry (A B : FVec Ideal S100000x64 .f32) (W : FVec Ideal S64x64 .f32)
    (x0 x2 : Vec Ideal S5000x64 .f32) (x1 : Vec Ideal S64x64 .f32) (n : Nat) (hn : n < 20)
    (h0 : ∀ (p : Fin 5000) (i : Fin 64), x0 (ix2 p i) = A (ix2 (⟨n * 5000 + p.val, by omega⟩ : Fin 100000) i))
    (h1 : ∀ (i q : Fin 64), x1 (ix2 i q) = W (ix2 i q))
    (h2 : ∀ (p : Fin 5000) (q : Fin 64), x2 (ix2 p q) = B (ix2 (⟨n * 5000 + p.val, by omega⟩ : Fin 100000) q))
    (p : Fin 5000) (q : Fin 64) :
    k1_pay1 (F := Ideal) x0 x1 x2 (ix2 p q) = hedgeLinear A W B (ix2 (⟨n * 5000 + p.val, by omega⟩ : Fin 100000) q) := by
  rw [pay1_entry]
  unfold hedgeLinear
  simp only [h0, h1, h2]

/-- The index maps over the grid: point `t` takes row block `t` of the aggregated rows, of the bias and of the
    output, and the whole weight matrix. -/
theorem idx_facts1 : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `hedgeLinear` of the three input arrays: an entry (p, q) of a block
    sits in its array at row (block index) · 5000 + p and column q, for the inputs and for the output alike. -/
theorem flushed1_eq (c : Dev nD) (t : Fin cfg1.N) :
    (dat1 (F := Ideal) V c).flushed 3 t = ((cfg1.win 3).blk t).view.read (Elt Ideal)
      (hedgeLinear (V c main_v69) (V c main_arg5) (V c main_v74)) := by
  show (cfg1.win 3).cut (grid1.coords t) ((dat1 V c).after 3 t) = _
  rw [after1_3]
  unfold out1_3
  rw [View.canon_unit_zero zero_off]
  simp only [View.ld_unit_zero (S := S5000x64) zero_off, View.ld_unit_zero (S := S64x64) zero_off]
  obtain ⟨e30, e31, e00, e01, e10, e11, e20, e21⟩ := idx_facts1 t
  have hn : win1_3.index t (0 : Fin 2) < 20 := by
    have ht : t.val < cfg1.N := t.isLt
    have hN : cfg1.N = 20 := N_1
    omega
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = hedgeLinear (V c main_v69) (V c main_arg5) (V c main_v74) (((cfg1.win 3).blk t).view.emb (ix2 p q))
  refine (block1_entry (V c main_v69) (V c main_v74) (V c main_arg5) (iblk1 V c 0 t) (iblk1 V c 2 t) (iblk1 V c 1 t)
    (win1_3.index t (0 : Fin 2)) hn ?_ ?_ ?_ p q).trans ?_
  · intro p i
    show V c main_v69 (((cfg1.win 0).blk t).view.emb (ix2 p i)) = V c main_v69 _
    refine congrArg _ (funext fun a => Fin.ext ?_)
    match a with
    | ⟨0, _⟩ => show win1_0.index t (0 : Fin 2) * 5000 + 1 * p.val = win1_3.index t (0 : Fin 2) * 5000 + p.val; omega
    | ⟨1, _⟩ => show win1_0.index t (1 : Fin 2) * 64 + 1 * i.val = i.val; omega
  · intro i q
    show V c main_arg5 (((cfg1.win 1).blk t).view.emb (ix2 i q)) = V c main_arg5 _
    refine congrArg _ (funext fun a => Fin.ext ?_)
    match a with
    | ⟨0, _⟩ => show win1_1.index t (0 : Fin 2) * 64 + 1 * i.val = i.val; omega
    | ⟨1, _⟩ => show win1_1.index t (1 : Fin 2) * 64 + 1 * q.val = q.val; omega
  · intro p q
    show V c main_v74 (((cfg1.win 2).blk t).view.emb (ix2 p q)) = V c main_v74 _
    refine congrArg _ (funext fun a => Fin.ext ?_)
    match a with
    | ⟨0, _⟩ => show win1_2.index t (0 : Fin 2) * 5000 + 1 * p.val = win1_3.index t (0 : Fin 2) * 5000 + p.val; omega
    | ⟨1, _⟩ => show win1_2.index t (1 : Fin 2) * 64 + 1 * q.val = q.val; omega
  · refine congrArg _ (funext fun a => Fin.ext ?_)
    match a with
    | ⟨0, _⟩ => show win1_3.index t (0 : Fin 2) * 5000 + p.val = win1_3.index t (0 : Fin 2) * 5000 + 1 * p.val; omega
    | ⟨1, _⟩ => show q.val = win1_3.index t (1 : Fin 2) * 64 + 1 * q.val; omega

/-- An entry of the array lies in point `t`'s block iff each coordinate lies in the block's range on its axis. -/
theorem mem_blk1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v75).slice (win1_3.rect t)).set ↔ _
  rw [View.set_slice_whole, Rect.mem_set_unit]
  exact Iff.rfl

/-- The 20 blocks of 5000 rows tile the 100000 rows: row `r` lies in the block of point `r / 5000`. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by omega⟩, rfl⟩
  obtain ⟨e30, e31, -⟩ := idx_facts1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- After the second projection call its output array is `hedgeLinear` of its three input arrays. -/
theorem arr1 (c : Dev nD) :
    (dat1 (F := Ideal) V c).arrAt 3 cfg1.N = hedgeLinear (V c main_v69) (V c main_arg5) (V c main_v74) :=
  (dat1 (F := Ideal) V c).arrAt_eq_of_cover 3 (hedgeLinear (V c main_v69) (V c main_arg5) (V c main_v74))
    (fun t _ => flushed1_eq V c t) cover1

end Cert.KernelIdeal.RegionVal

end
-- ==== Proof.Region2.lean ====
/-
  What the pooling call leaves in its output array, at the ideal instance, whatever the buffers hold when the call
  is entered (`V`). The call walks 125 blocks of 4000 node rows with ONE resident 512 × 64 output block: the first
  point zeroes it, and every point adds the contraction over its 4000 rows of the one-hot label mask (label = column
  index, as a float 0 or 1) with the rectified feature rows. After the last point the block holds the sum over all
  500000 rows: `poolSum`.
-/
import proofs.«418423_j6476810682471_2_alg».proof.Proof.Gen.KernelIdeal.Frame
import proofs.«418423_j6476810682471_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.ValueIdx
open Cert.Spec

variable (V : (c : Dev nD) → (b : Ref sig .tc) → Buf (Elt Ideal) ((c : Thread nD τ).loc b))

namespace Pool

/-- The two-axis zero offset, however it is spelt. -/
theorem hz2 : (![0, 0] : Fin 2 → Nat) = fun _ => 0 := funext fun a => by fin_cases a <;> rfl

/-- A point that is not the first leaves, in the resident block holding `xo`, the body's one update of `xo` by the
    point's feature rows `x0` and label column `x1`. -/
theorem out_B (c : Dev nD) (i : grid2.Coords) (a1 : Memref sig .tc .vmem S4000x64 .f32) (h1 : a1.IsWhole)
    (a2 : Memref sig .tc .vmem S4000x1 .i32) (h2 : a2.IsWhole) (a3 : Memref sig .tc .vmem S512x64 .f32) (h3 : a3.IsWhole)
    (hc : ¬cond2_0 i) (x0 : Vec Ideal S4000x64 .f32) (x1 : Vec Ideal S4000x1 .i32) (xo : Vec Ideal S512x64 .f32) :
    out2_B_2 (F := Ideal) c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero hz2]
  simp only [View.readAt_eq_ld, h1.read_unread, h2.read_unread, h3.read_unread, View.ld_unit_zero (S := S4000x64) hz2,
    View.ld_unit_zero (S := S4000x1) hz2, View.ld_unit_zero (S := S512x64) hz2]

/-- The first point zeroes the resident block and then updates it: it leaves the body's update of the zero block. -/
theorem out_A (c : Dev nD) (i : grid2.Coords) (a1 : Memref sig .tc .vmem S4000x64 .f32) (h1 : a1.IsWhole)
    (a2 : Memref sig .tc .vmem S4000x1 .i32) (h2 : a2.IsWhole) (a3 : Memref sig .tc .vmem S512x64 .f32) (h3 : a3.IsWhole)
    (hc : cond2_0 i) (x0 : Vec Ideal S4000x64 .f32) (x1 : Vec Ideal S4000x1 .i32) :
    out2_A_2 (F := Ideal) c i a1 h1 a2 h2 a3 h3 hc x0 x1 = k2_pay2 x0 x1 (k2_pay1 (F := Ideal)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S512x64) hz2, View.readCov_unit_zero (S := S512x64) _ hz2]
  simp only [View.readAt_eq_ld, h1.read_unread, h2.read_unread, View.ld_unit_zero (S := S4000x64) hz2,
    View.ld_unit_zero (S := S4000x1) hz2]

/-! ## The body's arithmetic, read at an entry

The matrix unit contracts the ROW axis of both operands: entry (g, f) of the product is the sum over the block's 4000
rows of (mask entry at (row, g)) times (rectified feature at (row, f)). -/

theorem lhs_pool_0 (j : S512x64.Idx) (q : dot_S4000x512_S4000x64_S512x64_0_0_1_1_n_n.contr.Idx) :
    (dot_S4000x512_S4000x64_S512x64_0_0_1_1_n_n.lhsIdx j q 0).val = (q ⟨0, by decide⟩).val :=
  dot_S4000x512_S4000x64_S512x64_0_0_1_1_n_n.lhsIdx_val_of_single rfl j q
theorem lhs_pool_1 (j : S512x64.Idx) (q : dot_S4000x512_S4000x64_S512x64_0_0_1_1_n_n.contr.Idx) :
    (dot_S4000x512_S4000x64_S512x64_0_0_1_1_n_n.lhsIdx j q 1).val = (j 0).val := by
  unfold DotDims.lhsIdx
  rw [dif_neg (show ¬(1 : Fin S4000x512.rank) ∈ dot_S4000x512_S4000x64_S512x64_0_0_1_1_n_n.lhsBatch by decide), dif_pos (show (1 : Fin S4000x512.rank) ∈ dot_S4000x512_S4000x64_S512x64_0_0_1_1_n_n.lhsNonContracting by decide)]
  rfl
theorem rhs_pool_0 (j : S512x64.Idx) (q : dot_S4000x512_S4000x64_S512x64_0_0_1_1_n_n.contr.Idx) :
    (dot_S4000x512_S4000x64_S512x64_0_0_1_1_n_n.rhsIdx j q 0).val = (q ⟨0, by decide⟩).val :=
  dot_S4000x512_S4000x64_S512x64_0_0_1_1_n_n.rhsIdx_val_of_single rfl j q
theorem rhs_pool_1 (j : S512x64.Idx) (q : dot_S4000x512_S4000x64_S512x64_0_0_1_1_n_n.contr.Idx) :
    (dot_S4000x512_S4000x64_S512x64_0_0_1_1_n_n.rhsIdx j q 1).val = (j 1).val := by
  unfold DotDims.rhsIdx
  rw [dif_neg (show ¬(1 : Fin S4000x64.rank) ∈ dot_S4000x512_S4000x64_S512x64_0_0_1_1_n_n.rhsBatch by decide), dif_pos (show (1 : Fin S4000x64.rank) ∈ dot_S4000x512_S4000x64_S512x64_0_0_1_1_n_n.rhsNonContracting by decide)]
  rfl

/-- The product into the zero accumulator, at entry (g, f): the sum over the 4000 rows. -/
theorem pool_matmul_apply (A : FVec Ideal S4000x512 .bf16) (B : FVec Ideal S4000x64 .bf16) (g : Fin 512) (f : Fin 64) :
    matmul dot_S4000x512_S4000x64_S512x64_0_0_1_1_n_n none A B (constant (F := Ideal) S512x64 .f32 0x00000000#32) (ix2 g f)
      = ∑ r : Fin 4000, A (ix2 r g) * B (ix2 r f) := by
  simp only [matmul]
  rw [Ideal.matmul_constant_zero_apply, ← Equiv.sum_comp (contrEquiv1 dot_S4000x512_S4000x64_S512x64_0_0_1_1_n_n 4000 rfl rfl).symm]
  refine Finset.sum_congr rfl fun k _ => ?_
  have hk := contrEquiv1_symm_val dot_S4000x512_S4000x64_S512x64_0_0_1_1_n_n 4000 rfl rfl k
  have el : dot_S4000x512_S4000x64_S512x64_0_0_1_1_n_n.lhsIdx (ix2 g f) ((contrEquiv1 dot_S4000x512_S4000x64_S512x64_0_0_1_1_n_n 4000 rfl rfl).symm k) = ix2 k g := funext fun a => Fin.ext (by
    match a with
    | ⟨0, _⟩ => exact (lhs_pool_0 _ _).trans hk
    | ⟨1, _⟩ => exact lhs_pool_1 _ _)
  have er : dot_S4000x512_S4000x64_S512x64_0_0_1_1_n_n.rhsIdx (ix2 g f) ((contrEquiv1 dot_S4000x512_S4000x64_S512x64_0_0_1_1_n_n 4000 rfl rfl).symm k) = ix2 k f := funext fun a => Fin.ext (by
    match a with
    | ⟨0, _⟩ => exact (rhs_pool_0 _ _).trans hk
    | ⟨1, _⟩ => exact rhs_pool_1 _ _)
  rw [el, er]

/-- A comparison bit, widened to a word and converted, is the float 1 when the words are equal and 0 otherwise. -/
theorem eqbit_to_float (a b : BitVec 32) :
    ((((IntOp.cmpi .eq a b).setWidth 32).toInt : ℝ) : EReal) = if a = b then 1 else 0 := by
  by_cases h : a = b
  · subst h; simp [IntOp.cmpi]
  · have hb : (a == b) = false := beq_eq_false_iff_ne.mpr h
    simp [IntOp.cmpi, hb, h]

/-- The one-hot mask entry at (row r, class g): 1 when the row's label is the word g, else 0. -/
theorem mask_apply (x1 : IVec S4000x1 32) (r : Fin 4000) (g : Fin 512) :
    (truncf .bf16 (sitofp .f32 (extui 32 (cmpi .eq (broadcastTo S4000x512 (shapeCast S4000x1 x1 shapeCasts_S4000x1_S4000x1) broadcasts_S4000x1_S4000x512)
      (iota .tc S4000x512 32 [1] iota_S4000x512_d1_w32)) natLt_1_32) : FVec Ideal S4000x512 .f32) bitsLt_bf16_f32 : FVec Ideal S4000x512 .bf16) (ix2 r g)
      = if x1 (ix2 r (0 : Fin 1)) = BitVec.ofNat 32 g.val then (1 : EReal) else 0 := by
  have e1 : broadcastTo S4000x512 (shapeCast S4000x1 x1 shapeCasts_S4000x1_S4000x1) broadcasts_S4000x1_S4000x512 (ix2 r g) = x1 (ix2 r (0 : Fin 1)) := by
    rw [shapeCast_self]
    exact broadcastTo_apply x1 broadcasts_S4000x1_S4000x512 (ix2 r g) (ix2 r (0 : Fin 1)) (fun a => by
      match a with
      | ⟨0, _⟩ => rfl
      | ⟨1, _⟩ => rfl)
  have e2 : iota .tc S4000x512 32 [1] iota_S4000x512_d1_w32 (ix2 r g) = BitVec.ofNat 32 g.val :=
    iota_single_apply .tc S4000x512 32 1 iota_S4000x512_d1_w32 (ix2 r g)
  refine Eq.trans ?_ (eqbit_to_float (x1 (ix2 r (0 : Fin 1))) (BitVec.ofNat 32 g.val))
  rw [← e1, ← e2]
  rfl

/-- The body's update at entry (g, f): what the block held there plus the sum over the point's 4000 rows of the mask
    entry times the rectified feature. -/
theorem pay2_apply (x0 : Vec Ideal S4000x64 .f32) (x1 : Vec Ideal S4000x1 .i32) (xo : Vec Ideal S512x64 .f32) (g : Fin 512) (f : Fin 64) :
    k2_pay2 (F := Ideal) x0 x1 xo (ix2 g f)
      = xo (ix2 g f) + ∑ r : Fin 4000, (if x1 (ix2 r (0 : Fin 1)) = BitVec.ofNat 32 g.val then (1 : EReal) else 0) * max (x0 (ix2 r f)) 0 := by
  unfold k2_pay2
  refine (addf_apply _ _ _).trans ?_
  refine congrArg₂ (· + ·) (congrFun (shapeCast_self xo _) _) ?_
  refine (pool_matmul_apply _ _ g f).trans ?_
  refine Finset.sum_congr rfl fun r _ => ?_
  refine congrArg₂ (· * ·) (mask_apply x1 r g) ?_
  refine (truncf_apply (φ := .f32) (ψ := .bf16) _ bitsLt_bf16_f32 (ix2 r f)).trans ?_
  refine (maximumf_apply _ _ _).trans ?_
  refine congrArg₂ max (congrFun (shapeCast_self x0 _) _) ?_
  exact Ideal.ofBits_zero_f32

/-- The zero block is zero at every entry. -/
theorem pay1_apply (j : S512x64.Idx) : k2_pay1 (F := Ideal) j = 0 := Ideal.ofBits_zero_f32

/-! ## The blocks a point reads

Point `t` reads rows 4000·t … 4000·t + 3999 of the feature array (all 64 columns) and of the label column. -/

/-- The feature rows and the label rows point `t` reads, and the two arrays as the call finds them. -/
abbrev hblk (c : Dev nD) (t : Fin cfg2.N) : Vec Ideal S4000x64 .f32 := iblk2 V c 0 t
abbrev bblk (c : Dev nD) (t : Fin cfg2.N) : Vec Ideal S4000x1 .i32 := iblk2 V c 1 t
abbrev harr (c : Dev nD) : FVec Ideal ⟨2, ![500000, 64]⟩ .f32 := V c main_v88
abbrev barr (c : Dev nD) : IVec ⟨2, ![500000, 1]⟩ 32 := V c main_v89

/-- The two input windows step along the row axis with the point and stay at column block 0. -/
theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)

/-- Row `r` of point `t`'s feature block is row 4000·t + r of the feature array. -/
theorem hblk_apply (c : Dev nD) (t : Fin cfg2.N) (r : Fin 4000) (f : Fin 64) (hn : 4000 * t.val + r.val < 500000) :
    hblk V c t (ix2 r f) = harr V c (ix2 (⟨4000 * t.val + r.val, hn⟩ : Fin 500000) f) := by
  have hi := idx2_0 t
  show iblk2 V c 0 t (ix2 r f) = _
  unfold iblk2
  rw [View.read_apply]
  show V c main_v88 _ = V c main_v88 _
  congr 1
  funext a
  apply Fin.ext
  match a with
  | ⟨0, _⟩ => show win2_0.index t 0 * 4000 + 1 * r.val = 4000 * t.val + r.val; rw [hi.1]; omega
  | ⟨1, _⟩ => show win2_0.index t 1 * 64 + 1 * f.val = f.val; rw [hi.2]; omega

/-- Row `r` of point `t`'s label block is row 4000·t + r of the label column. -/
theorem bblk_apply (c : Dev nD) (t : Fin cfg2.N) (r : Fin 4000) (hn : 4000 * t.val + r.val < 500000) :
    bblk V c t (ix2 r (0 : Fin 1)) = barr V c (ix2 (⟨4000 * t.val + r.val, hn⟩ : Fin 500000) (0 : Fin 1)) := by
  have hi := idx2_1 t
  show iblk2 V c 1 t (ix2 r (0 : Fin 1)) = _
  unfold iblk2
  rw [View.read_apply]
  show V c main_v89 _ = V c main_v89 _
  congr 1
  funext a
  apply Fin.ext
  match a with
  | ⟨0, _⟩ => show win2_1.index t 0 * 4000 + 1 * r.val = 4000 * t.val + r.val; rw [hi.1]; omega
  | ⟨1, _⟩ => show win2_1.index t 1 * 1 + 1 * 0 = 0; rw [hi.2]

/-! ## The running sum

Row `n` of the arrays contributes (label n = g) · max(feature (n, f), 0) to entry (g, f). After point `t` the resident
block holds the sum of the contributions of rows 0 … 4000·(t + 1) − 1. -/

/-- Row `n`'s contribution to entry (g, f); nothing beyond the last row. -/
def rowTerm (h : FVec Ideal ⟨2, ![500000, 64]⟩ .f32) (b : IVec ⟨2, ![500000, 1]⟩ 32) (g : Fin 512) (f : Fin 64) (n : ℕ) : EReal :=
  if hn : n < 500000 then
    (if b (ix2 (⟨n, hn⟩ : Fin 500000) (0 : Fin 1)) = BitVec.ofNat 32 g.val then (1 : EReal) else 0)
      * max (h (ix2 (⟨n, hn⟩ : Fin 500000) f)) 0
  else 0

/-- A summand of point `t`'s update is the contribution of row 4000·t + r. -/
theorem blk_term (c : Dev nD) (t : Fin cfg2.N) (g : Fin 512) (f : Fin 64) (r : Fin 4000) :
    (if bblk V c t (ix2 r (0 : Fin 1)) = BitVec.ofNat 32 g.val then (1 : EReal) else 0) * max (hblk V c t (ix2 r f)) 0
      = rowTerm (harr V c) (barr V c) g f (4000 * t.val + r.val) := by
  have hN : cfg2.N = 125 := N_2
  have hn : 4000 * t.val + r.val < 500000 := by have := t.isLt; have := r.isLt; omega
  unfold rowTerm
  rw [dif_pos hn, hblk_apply V c t r f hn, bblk_apply V c t r hn]

/-- After point `n` entry (g, f) of the resident block is the sum of the first 4000·(n + 1) rows' contributions. -/
theorem outsAt_apply (c : Dev nD) (g : Fin 512) (f : Fin 64) : ∀ (n : ℕ) (h : n < cfg2.N),
    outsAt2 V c n h (ix2 g f) = ∑ k ∈ Finset.range (4000 * (n + 1)), rowTerm (harr V c) (barr V c) g f k
  | 0, h => by
    have h0 : (⟨0, h⟩ : Fin cfg2.N).val % 125 = 0 := Nat.zero_mod _
    rw [outsAt2_A V c ⟨0, h⟩ h0]
    refine (congrFun (out_A c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
      ((hcond2_0 ⟨0, h⟩).mpr h0) (hblk V c ⟨0, h⟩) (bblk V c ⟨0, h⟩)) (ix2 g f)).trans ?_
    refine (pay2_apply (hblk V c ⟨0, h⟩) (bblk V c ⟨0, h⟩) (k2_pay1 (F := Ideal)) g f).trans ?_
    rw [pay1_apply, zero_add, Finset.sum_range]
    refine Finset.sum_congr rfl fun r _ => ?_
    refine (blk_term V c ⟨0, h⟩ g f r).trans ?_
    show rowTerm _ _ g f (4000 * 0 + r.val) = _
    rw [Nat.mul_zero, Nat.zero_add]
  | n + 1, h => by
    have hN : cfg2.N = 125 := N_2
    have hB : ¬(⟨n + 1, h⟩ : Fin cfg2.N).val % 125 = 0 := by dsimp only; omega
    rw [outsAt2_B V c ⟨n + 1, h⟩ hB]
    try dsimp only
    refine (congrFun (out_B c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
      (fun hh => hB ((hcond2_0 ⟨n + 1, h⟩).mp hh)) (hblk V c ⟨n + 1, h⟩) (bblk V c ⟨n + 1, h⟩) (outsAt2 V c n (Nat.lt_of_succ_lt h))) (ix2 g f)).trans ?_
    refine (pay2_apply (hblk V c ⟨n + 1, h⟩) (bblk V c ⟨n + 1, h⟩) (outsAt2 V c n (Nat.lt_of_succ_lt h)) g f).trans ?_
    rw [outsAt_apply c g f n (Nat.lt_of_succ_lt h), show 4000 * (n + 1 + 1) = 4000 * (n + 1) + 4000 by ring,
      Finset.sum_range_add, Finset.sum_range (fun x => rowTerm (harr V c) (barr V c) g f (4000 * (n + 1) + x))]
    refine congrArg (_ + ·) (Finset.sum_congr rfl fun r _ => ?_)
    exact blk_term V c ⟨n + 1, h⟩ g f r

/-! ## The output array

The output window's index map is constant and its block is the whole 512 × 64 array, written back once, after the last
point: the array ends holding what the last point leaves, the sum over all 500000 rows. -/

/-- The last point of the walk. -/
abbrev tLast : Fin cfg2.N := ⟨124, by rw [show cfg2.N = 125 from N_2]; decide⟩

/-- The per-label sums, as contents of the output array. -/
abbrev pooled (c : Dev nD) : Buf (Elt Ideal) ((c : Thread nD τ).loc main_v90) := poolSum (harr V c) (barr V c)

/-- After the last point the resident block holds the per-label sums over all rows. -/
theorem outsAt_last (c : Dev nD) : outsAt2 V c tLast.val tLast.isLt = pooled V c := by
  funext j
  obtain ⟨g, f, rfl⟩ : ∃ (g : Fin 512) (f : Fin 64), j = ix2 g f := ⟨j 0, j 1, eq_ix2 j⟩
  refine (outsAt_apply V c g f 124 _).trans ?_
  show ∑ k ∈ Finset.range 500000, _ = _
  rw [Finset.sum_range]
  show _ = poolSum (harr V c) (barr V c) (ix2 g f)
  unfold poolSum
  refine Finset.sum_congr rfl fun n _ => ?_
  unfold rowTerm
  rw [dif_pos n.isLt]

/-- The output window never moves. -/
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-- The one write-back, after the last point, writes the per-label sums: the block at offsets zero is the whole array. -/
theorem flushed_eq (c : Dev nD) (t : Fin cfg2.N) (hf : (cfg2.win 2).flush t = true) :
    (dat2 V c).flushed 2 t = ((cfg2.win 2).blk t).view.read (Elt Ideal) (pooled V c) := by
  have hN : cfg2.N = 125 := N_2
  have h124 : t.val = 124 := by have := (flush2_2 t).mp hf; have := t.isLt; omega
  obtain rfl : t = tLast := Fin.ext h124
  show (cfg2.win 2).cut (grid2.coords tLast) ((dat2 V c).after 2 tLast) = _
  rw [after2_2, outsAt_last]
  have hz' : (fun a => win2_2.index tLast a * main_v90.ty.shape.size a) = fun _ => 0 := funext fun a => by
    match a with
    | ⟨0, _⟩ => show win2_2.index tLast 0 * 512 = 0; rw [(idx2_2 tLast).1]
    | ⟨1, _⟩ => show win2_2.index tLast 1 * 64 = 0; rw [(idx2_2 tLast).2]
  exact (Memref.read_access_unit_zero (Elt Ideal) main_v90 hz' (fun a => by rw [congrFun hz' a]; simp) (pooled V c)).symm

end Pool

/-- After the pooling call its output array is `poolSum` of the feature array and the label column. -/
theorem arr2 (c : Dev nD) :
    (dat2 (F := Ideal) V c).arrAt 2 cfg2.N = poolSum (V c main_v88) (V c main_v89) :=
  (dat2 V c).arrAt_eq_of_cover 2 (Pool.pooled V c) (Pool.flushed_eq V c) fun i =>
    ⟨Pool.tLast, (flush2_2 Pool.tLast).mpr (by decide), by
      show i ∈ ((View.whole main_v90).slice (win2_2.rect Pool.tLast)).set
      rw [View.set_slice_whole, Rect.mem_set_unit]
      intro a
      have h0 : (i 0 : Nat) < 512 := (i 0).isLt
      have h1 : (i 1 : Nat) < 64 := (i 1).isLt
      match a with
      | ⟨0, _⟩ => show win2_2.index Pool.tLast 0 * win2_2.size 0 ≤ (i 0 : Nat) ∧ (i 0 : Nat) < win2_2.index Pool.tLast 0 * win2_2.size 0 + win2_2.xsize (grid2.coords Pool.tLast) 0
                  rw [(Pool.idx2_2 Pool.tLast).1, show win2_2.xsize (grid2.coords Pool.tLast) 0 = 512 from by decide +kernel]; omega
      | ⟨1, _⟩ => show win2_2.index Pool.tLast 1 * win2_2.size 1 ≤ (i 1 : Nat) ∧ (i 1 : Nat) < win2_2.index Pool.tLast 1 * win2_2.size 1 + win2_2.xsize (grid2.coords Pool.tLast) 1
                  rw [(Pool.idx2_2 Pool.tLast).2, show win2_2.xsize (grid2.coords Pool.tLast) 1 = 64 from by decide +kernel]; omega⟩

end Cert.KernelIdeal.RegionVal

end
-- ==== Proof.LibGather.lean ====
/-
  A row gather read at an index.

  `x[idx]` of a table `x` at an integer vector `idx` of length `E` lowers to `stablehlo.gather` with the indices
  reshaped to `[E, 1]` (the index vector on axis 1), the table's first axis collapsed and named by the start index
  map, and slice sizes of one row. The result's row `e` is the table's row at the start index `idx[e, 0]` read as a
  signed integer and clamped into `[0, N − 1]`, as StableHLO clamps every start index so that the slice fits.

  Two shapes: a table of scalars `[N]` (result `[E]`), and a table of rows `[N, C]` with the whole row as the slice
  (result `[E, C]`: entry `(e, c)` is the table's `(row, c)`).
-/
import Idealize.ShloMosaic.PureOps.ShapeOps
import Idealize.ShloMosaic.Lib.ValueIdx

noncomputable section

namespace Idealize.ShloMosaic.RowGather

open Idealize.ShloMosaic Idealize.ShloMosaic.ValueIdx

variable {α : Type}

/-- The row a start index word names in a table of `N` rows: the word read signed, clamped into `[0, N − 1]`. -/
def clampRow (N : Nat) (hN : 0 < N) {w : Nat} (v : BitVec w) : Fin N := ⟨min v.toInt.toNat (N - 1), by omega⟩

/-! ## A table of scalars -/

/-- The dimension numbers of `x[idx]` for `x : [N]`, the indices as `[E, 1]`, the result `[E]`. -/
abbrev scalarDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table at the clamped start index `idx[e, 0]`. -/
theorem gather_scalar_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (scalarDims N E wf) x idx j = x (ix1 (clampRow N hN (idx (ix2 (j 0) (0 : Fin 1))))) := by
  unfold Host.gather
  congr 1
  funext a
  obtain rfl : a = 0 := Subsingleton.elim _ _
  refine Fin.ext ?_
  show (scalarDims N E wf).start j idx 0 + (scalarDims N E wf).batchCoord j 0 + (scalarDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (scalarDims N E wf).startIndexMap from List.mem_singleton.mpr rfl)]
  have hsi : (scalarDims N E wf).siIdx j ⟨List.idxOf (0 : Fin 1) (scalarDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-! ## A table of rows -/

/-- The dimension numbers of `x[idx]` for `x : [N, C]`, the indices as `[E, 1]`, the result `[E, C]`: whole rows. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the table's row axis the operand index is the clamped start index `idx[e, 0]`. -/
theorem rowDims_operandIdx_zero {N C E w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowDims N C E wf).operandIdx j idx (0 : Fin 2)).val = (clampRow N hN (idx (ix2 (j 0) (0 : Fin 1)))).val := by
  show (rowDims N C E wf).start j idx (0 : Fin 2) + (rowDims N C E wf).batchCoord j (0 : Fin 2)
    + (rowDims N C E wf).offCoord j (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx j ⟨List.idxOf (0 : Fin 2) (rowDims N C E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the operand index is the result's column. -/
theorem rowDims_operandIdx_one {N C E w : Nat}
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowDims N C E wf).operandIdx j idx (1 : Fin 2)).val = (j 1).val := by
  show (rowDims N C E wf).start j idx (1 : Fin 2) + (rowDims N C E wf).batchCoord j (1 : Fin 2)
    + (rowDims N C E wf).offCoord j (1 : Fin 2) = _
  have hnot : ¬ (1 : Fin 2) ∈ (rowDims N C E wf).startIndexMap := by
    show ¬ (1 : Fin 2) ∈ ([0] : List (Fin 2)); decide
  have hkept : (1 : Fin 2) ∈ (rowDims N C E wf).sKept :=
    (GatherDims.mem_sKept _ _).mpr ⟨by show ¬ (1 : Fin 2) ∈ ([0] : List (Fin 2)); decide, List.not_mem_nil⟩
  have h0 : (rowDims N C E wf).start j idx (1 : Fin 2) = 0 := by
    unfold GatherDims.start; rw [dif_neg hnot]
  rw [h0, GatherDims.batchCoord_eq_zero _ _ _ List.not_mem_nil]
  simp only [Nat.zero_add, Nat.add_zero]
  unfold GatherDims.offCoord
  rw [dif_pos hkept]
  rfl

/-- Entry `(e, c)` of the gather is the table's entry `c` of the row at the clamped start index `idx[e, 0]`. -/
theorem gather_row_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowDims N C E wf) x idx j = x (ix2 (clampRow N hN (idx (ix2 (j 0) (0 : Fin 1)))) (j 1)) := by
  unfold Host.gather
  congr 1
  funext a
  refine Fin.ext ?_
  match a with
  | ⟨0, _⟩ => exact rowDims_operandIdx_zero hN wf idx j
  | ⟨1, _⟩ => exact rowDims_operandIdx_one wf idx j

end Idealize.ShloMosaic.RowGather

end
-- ==== Proof.LibScatter.lean ====
/-
  An accumulating row scatter read at an index, at the ideal instance.

  `zeros.at[idx].add(upd)` (jax's segment sum) lowers to `stablehlo.scatter` with an `add` body, the indices laid
  as `[E, 1]` (the index vector on axis 1), the operand's first axis inserted and named by the scatter index map.
  Update row `k` lands on the operand's row `idx[k, 0]` read as a SIGNED integer, not clamped: a start index outside
  `[0, N)` drops the update. At the ideal instance the result's entry is the operand's plus the exact sum of the
  updates that land on it.

  Two shapes: updates that are scalars (operand `[N]`, updates `[E]`), and updates that are rows (operand `[N, C]`,
  updates `[E, C]`, the whole row as the window: entry `(n, c)` collects the updates' `(k, c)`).
-/
import Idealize.ShloMosaic.PureOps.Ideal
import Idealize.ShloMosaic.PureOps.Contract
import Idealize.ShloMosaic.Lib.ValueIdx
import Idealize.ShloMosaic.Lib.ValueIdxRank1

noncomputable section

namespace Idealize.ShloMosaic.RowScatter

open Idealize.ShloMosaic Idealize.ShloMosaic.ValueIdx

/-! ## Scalar updates -/

/-- The dimension numbers of `x.at[idx].add(upd)` for `x : [N]`, the indices as `[E, 1]`, the updates `[E]`. -/
abbrev scalarDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- On the operand's one axis the window starts at the start index `idx[k, 0]`, read signed. -/
theorem scalarDims_start {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (a : Fin 1) :
    (scalarDims N E wf).start j idx a = (idx (ix2 (j 0) (0 : Fin 1))).toInt := by
  obtain rfl : a = 0 := Subsingleton.elim _ _
  unfold ScatterDims.start
  rw [dif_pos (show (0 : Fin 1) ∈ (scalarDims N E wf).scatterDimsToOperandDims from List.mem_singleton.mpr rfl)]
  have hsi : (scalarDims N E wf).siIdx j ⟨List.idxOf (0 : Fin 1) (scalarDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- At the update index of coordinate `k` the window starts at `idx[k, 0]`, read signed. -/
theorem scalarDims_start_ix1 {N E w : Nat}
    (wf : ScatterDims.WF ⟨1, ![N]⟩ ⟨2, ![E, 1]⟩ ⟨1, ![E]⟩ [] [0] [0] 1)
    (idx : IVec ⟨2, ![E, 1]⟩ w) (k : Fin E) (a : Fin 1) :
    (scalarDims N E wf).start (ix1 k) idx a = (idx (ix2 k (0 : Fin 1))).toInt :=
  scalarDims_start wf idx (ix1 k) a

/-- The operand's one axis is inserted: the window coordinate on it is `0`. -/
theorem scalarDims_window {N E : Nat}
    (wf : ScatterDims.WF ⟨1, ![N]⟩ ⟨2, ![E, 1]⟩ ⟨1, ![E]⟩ [] [0] [0] 1)
    (j : (⟨1, ![E]⟩ : Shape).Idx) (a : Fin 1) :
    (scalarDims N E wf).window j a = 0 := by
  obtain rfl : a = 0 := Subsingleton.elim _ _
  unfold ScatterDims.window
  rw [dif_neg (show ¬ (0 : Fin 1) ∈ (scalarDims N E wf).sKept by
    show ¬ (0 : Fin 1) ∈ ([] : List (Fin 1)); exact List.not_mem_nil)]

/-- Update `k` lands on entry `n` exactly when its start index, read signed, is `n`. -/
theorem scalarDims_resultIdx?_eq_some_iff {N E w : Nat}
    (wf : ScatterDims.WF ⟨1, ![N]⟩ ⟨2, ![E, 1]⟩ ⟨1, ![E]⟩ [] [0] [0] 1)
    (idx : IVec ⟨2, ![E, 1]⟩ w) (k : Fin E) (n : Fin N) :
    (scalarDims N E wf).resultIdx? (ix1 k) idx = some (ix1 n)
      ↔ (idx (ix2 k (0 : Fin 1))).toInt = (n.val : ℤ) := by
  have hn : n.val < N := n.isLt
  unfold ScatterDims.resultIdx?
  split_ifs with h
  · rw [Option.some.injEq]
    constructor
    · intro he
      have hv : ((scalarDims N E wf).start (ix1 k) idx (0 : Fin 1)
          + ((scalarDims N E wf).window (ix1 k) (0 : Fin 1) : ℤ)).toNat = n.val :=
        congrArg Fin.val (congrFun he (0 : Fin 1))
      have h0 := (h (0 : Fin 1)).1
      rw [scalarDims_start_ix1, scalarDims_window] at hv h0
      show (idx (ix2 k (0 : Fin 1))).toInt = (n.val : ℤ)
      change (idx (ix2 k (0 : Fin 1))).toInt + ((0 : Nat) : ℤ) ≥ 0 at h0
      omega
    · intro he
      funext a
      obtain rfl : a = 0 := Subsingleton.elim _ _
      refine Fin.ext ?_
      show ((scalarDims N E wf).start (ix1 k) idx (0 : Fin 1)
          + ((scalarDims N E wf).window (ix1 k) (0 : Fin 1) : ℤ)).toNat = n.val
      rw [scalarDims_start_ix1, scalarDims_window]
      have he' : (idx (ix2 k (0 : Fin 1))).toInt = (n.val : ℤ) := he
      omega
  · constructor
    · intro he; cases he
    · intro he
      exfalso; apply h; intro a
      obtain rfl : a = 0 := Subsingleton.elim _ _
      rw [scalarDims_start_ix1, scalarDims_window]
      have he' : (idx (ix2 k (0 : Fin 1))).toInt = (n.val : ℤ) := he
      show 0 ≤ (idx (ix2 k (0 : Fin 1))).toInt + ((0 : Nat) : ℤ) ∧ (idx (ix2 k (0 : Fin 1))).toInt + ((0 : Nat) : ℤ) < (N : ℤ)
      omega

/-- Entry `n` of the scatter is the operand's entry plus the sum of the updates whose start index is `n`. -/
theorem scatterAdd_scalar_apply {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (scalarDims N E wf) x idx upd (ix1 n)
      = x (ix1 n) + ∑ k : Fin E, if (idx (ix2 k (0 : Fin 1))).toInt = (n.val : ℤ) then upd (ix1 k) else 0 := by
  show Ideal.hostScatterAdd (scalarDims N E wf) x idx upd (ix1 n) = _
  unfold Ideal.hostScatterAdd
  congr 1
  rw [Finset.sum_filter, ← Equiv.sum_comp (idxEquiv1 (n := E)).symm]
  refine Finset.sum_congr rfl fun k _ => ?_
  exact if_congr (scalarDims_resultIdx?_eq_some_iff wf idx k n) rfl rfl

/-! ## Row updates -/

/-- The dimension numbers of `x.at[idx].add(upd)` for `x : [N, C]`, the indices as `[E, 1]`, the updates `[E, C]`. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's row axis the window starts at the start index `idx[k, 0]`, read signed. -/
theorem rowDims_start_zero {N C E w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowDims N C E wf).start j idx (0 : Fin 2) = (idx (ix2 (j 0) (0 : Fin 1))).toInt := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The scatter index map does not name the operand's column axis: the window starts at `0` there. -/
theorem rowDims_start_one {N C E w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowDims N C E wf).start j idx (1 : Fin 2) = 0 := by
  unfold ScatterDims.start
  rw [dif_neg (show ¬ (1 : Fin 2) ∈ (rowDims N C E wf).scatterDimsToOperandDims by
    show ¬ (1 : Fin 2) ∈ ([0] : List (Fin 2)); decide)]

/-- The operand's row axis is inserted: the window coordinate on it is `0`. -/
theorem rowDims_window_zero {N C E : Nat} (wf : ScatterDims.WF ⟨2, ![N, C]⟩ ⟨2, ![E, 1]⟩ ⟨2, ![E, C]⟩ [1] [0] [0] 1) (j : (⟨2, ![E, C]⟩ : Shape).Idx) :
    (rowDims N C E wf).window j (0 : Fin 2) = 0 := by
  unfold ScatterDims.window
  rw [dif_neg (show ¬ (0 : Fin 2) ∈ (rowDims N C E wf).sKept by
    show ¬ (0 : Fin 2) ∈ ([1] : List (Fin 2)); decide)]

/-- On the operand's column axis the window coordinate is the update's column. -/
theorem rowDims_window_one {N C E : Nat} (wf : ScatterDims.WF ⟨2, ![N, C]⟩ ⟨2, ![E, 1]⟩ ⟨2, ![E, C]⟩ [1] [0] [0] 1) (j : (⟨2, ![E, C]⟩ : Shape).Idx) :
    (rowDims N C E wf).window j (1 : Fin 2) = (j 1).val := by
  unfold ScatterDims.window
  rw [dif_pos (show (1 : Fin 2) ∈ (rowDims N C E wf).sKept by
    show (1 : Fin 2) ∈ ([1] : List (Fin 2)); exact List.mem_singleton.mpr rfl)]
  rfl

/-- Update `(k, c')` lands on entry `(n, c)` exactly when row `k`'s start index, read signed, is `n` and the
    columns agree. -/
theorem rowDims_resultIdx?_eq_some_iff {N C E w : Nat} (wf : ScatterDims.WF ⟨2, ![N, C]⟩ ⟨2, ![E, 1]⟩ ⟨2, ![E, C]⟩ [1] [0] [0] 1)
    (idx : IVec ⟨2, ![E, 1]⟩ w) (k : Fin E) (c' : Fin C) (n : Fin N) (c : Fin C) :
    (rowDims N C E wf).resultIdx? (ix2 k c') idx = some (ix2 n c)
      ↔ (idx (ix2 k (0 : Fin 1))).toInt = (n.val : ℤ) ∧ c' = c := by
  have hn : n.val < N := n.isLt
  have hc : c.val < C := c.isLt
  have hc' : c'.val < C := c'.isLt
  have hs0 : (rowDims N C E wf).start (ix2 k c') idx (0 : Fin 2) = (idx (ix2 k (0 : Fin 1))).toInt :=
    rowDims_start_zero wf idx (ix2 k c')
  have hs1 : (rowDims N C E wf).start (ix2 k c') idx (1 : Fin 2) = 0 := rowDims_start_one wf idx (ix2 k c')
  have hw0 : (rowDims N C E wf).window (ix2 k c') (0 : Fin 2) = 0 := rowDims_window_zero wf (ix2 k c')
  have hw1 : (rowDims N C E wf).window (ix2 k c') (1 : Fin 2) = c'.val := rowDims_window_one wf (ix2 k c')
  unfold ScatterDims.resultIdx?
  split_ifs with h
  · rw [Option.some.injEq]
    constructor
    · intro he
      have hv0 : ((rowDims N C E wf).start (ix2 k c') idx (0 : Fin 2)
          + ((rowDims N C E wf).window (ix2 k c') (0 : Fin 2) : ℤ)).toNat = n.val :=
        congrArg Fin.val (congrFun he (0 : Fin 2))
      have hv1 : ((rowDims N C E wf).start (ix2 k c') idx (1 : Fin 2)
          + ((rowDims N C E wf).window (ix2 k c') (1 : Fin 2) : ℤ)).toNat = c.val :=
        congrArg Fin.val (congrFun he (1 : Fin 2))
      have h0 := (h (0 : Fin 2)).1
      rw [hs0, hw0] at hv0 h0
      rw [hs1, hw1] at hv1
      refine ⟨?_, Fin.ext ?_⟩
      · show (idx (ix2 k (0 : Fin 1))).toInt = (n.val : ℤ)
        omega
      · omega
    · rintro ⟨he, rfl⟩
      have he' : (idx (ix2 k (0 : Fin 1))).toInt = (n.val : ℤ) := he
      funext a; refine Fin.ext ?_
      match a with
      | ⟨0, _⟩ =>
        show ((rowDims N C E wf).start (ix2 k c') idx (0 : Fin 2)
          + ((rowDims N C E wf).window (ix2 k c') (0 : Fin 2) : ℤ)).toNat = n.val
        rw [hs0, hw0]; omega
      | ⟨1, _⟩ =>
        show ((rowDims N C E wf).start (ix2 k c') idx (1 : Fin 2)
          + ((rowDims N C E wf).window (ix2 k c') (1 : Fin 2) : ℤ)).toNat = c'.val
        rw [hs1, hw1]; omega
  · constructor
    · intro he; cases he
    · rintro ⟨he, rfl⟩
      have he' : (idx (ix2 k (0 : Fin 1))).toInt = (n.val : ℤ) := he
      exfalso; apply h; intro a
      match a with
      | ⟨0, _⟩ =>
        show 0 ≤ (rowDims N C E wf).start (ix2 k c') idx (0 : Fin 2)
            + ((rowDims N C E wf).window (ix2 k c') (0 : Fin 2) : ℤ)
          ∧ (rowDims N C E wf).start (ix2 k c') idx (0 : Fin 2)
            + ((rowDims N C E wf).window (ix2 k c') (0 : Fin 2) : ℤ) < (N : ℤ)
        rw [hs0, hw0]; omega
      | ⟨1, _⟩ =>
        show 0 ≤ (rowDims N C E wf).start (ix2 k c') idx (1 : Fin 2)
            + ((rowDims N C E wf).window (ix2 k c') (1 : Fin 2) : ℤ)
          ∧ (rowDims N C E wf).start (ix2 k c') idx (1 : Fin 2)
            + ((rowDims N C E wf).window (ix2 k c') (1 : Fin 2) : ℤ) < (C : ℤ)
        rw [hs1, hw1]; omega

/-- Entry `(n, c)` of the scatter is the operand's entry plus the sum over the update rows whose start index is `n`
    of their entry `c`. -/
theorem scatterAdd_row_apply {N C E w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (rowDims N C E wf) x idx upd (ix2 n c)
      = x (ix2 n c) + ∑ k : Fin E, if (idx (ix2 k (0 : Fin 1))).toInt = (n.val : ℤ) then upd (ix2 k c) else 0 := by
  show Ideal.hostScatterAdd (rowDims N C E wf) x idx upd (ix2 n c) = _
  unfold Ideal.hostScatterAdd
  congr 1
  rw [Finset.sum_filter, sum_idx2]
  refine Finset.sum_congr rfl fun k _ => ?_
  by_cases hk : (idx (ix2 k (0 : Fin 1))).toInt = (n.val : ℤ)
  · rw [if_pos hk]
    rw [Finset.sum_congr rfl fun c' _ =>
      if_congr ((rowDims_resultIdx?_eq_some_iff wf idx k c' n c).trans (and_iff_right hk)) rfl rfl]
    exact (Finset.sum_ite_eq' Finset.univ c fun c' => upd (ix2 k c')).trans (if_pos (Finset.mem_univ c))
  · rw [if_neg hk]
    refine Finset.sum_eq_zero fun c' _ => if_neg ?_
    exact fun he => hk ((rowDims_resultIdx?_eq_some_iff wf idx k c' n c).mp he).1

end Idealize.ShloMosaic.RowScatter

end
-- ==== Proof.LayerLaw.lean ====
/-
  Projecting AFTER aggregating is projecting BEFORE, as an equation between arrays at the ideal instance. For a
  hyperedge e of degree n (the number of incidences whose column index is e), with S its incidences and r(k) the node
  an incidence gathers:
    Σ_i ((Σ_{k∈S} h[r k, i]) · inv n) · W[i, f] + [n > 0] · b[f]  =  (Σ_{k∈S} (Σ_i h[r k, i] · W[i, f] + b[f])) · inv n,
  where inv n = 1/n for n > 0 and 0 for n = 0: distributivity and n · inv n = [n > 0], valid because every entry of
  h, W and b is a real number.
-/
import proofs.«418423_j6476810682471_2_alg».proof.Proof.Spec
import proofs.«418423_j6476810682471_2_alg».proof.Proof.KTerms
import proofs.«418423_j6476810682471_2_alg».proof.Proof.LibGather
import proofs.«418423_j6476810682471_2_alg».proof.Proof.LibScatter
import Idealize.ShloMosaic.PureOps.Ideal.Laws

noncomputable section

namespace Cert.Bridge

open Cert.ReferenceIdeal Cert.ReferenceIdeal.Gen Cert.ReferenceIdeal.ReadP Idealize.ShloMosaic Idealize.ShloMosaic.ValueIdx
open Cert.Spec

namespace LayerAux

/-- The coercion of the reals into the extended reals commutes with finite sums. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A guarded real summand, coerced. -/
theorem coe_ite_zero (p : Prop) [Decidable p] (x : ℝ) :
    (if p then (x : EReal) else 0) = ((if p then x else 0 : ℝ) : EReal) := by
  split <;> simp

/-- The pattern of the float one denotes one. -/
theorem one_f32 : Ideal.ofBits .f32 0x3F800000#32 = 1 := by
  simp [Ideal.ofBits, Ideal.ieee, -EReal.coe_mul]; norm_num

/-- The guarded reciprocal of a count: `1 / c` for a positive count and `0` for an empty one. -/
theorem inv_count (c : ℕ) :
    Scalar.select (Ideal.cmp .ogt ((c : ℝ) : EReal) 0) (Ideal.div 1 ((c : ℝ) : EReal)) 0
      = (((if 0 < c then 1 / (c : ℝ) else 0) : ℝ) : EReal) := by
  by_cases hc : 0 < c
  · have hc' : (0 : ℝ) < (c : ℝ) := by exact_mod_cast hc
    have h1 : Ideal.cmp .ogt ((c : ℝ) : EReal) 0 = 1#1 := by
      simp only [Ideal.cmp]
      rw [decide_eq_true (by exact_mod_cast hc')]; rfl
    rw [h1, select_one, if_pos hc, Ideal.div_coe (ne_of_gt hc'), one_mul]
  · have h0 : c = 0 := by omega
    subst h0
    have h1 : Ideal.cmp .ogt (((0 : ℕ) : ℝ) : EReal) 0 = 0#1 := by
      simp only [Ideal.cmp]
      rw [decide_eq_false (by simp)]; rfl
    rw [h1, select_zero, if_neg hc, EReal.coe_zero]

/-- The degree's positivity as a float: `1` for a positive count and `0` for an empty one. -/
theorem gate_count (c : ℕ) :
    (((Ideal.cmp .ogt ((c : ℝ) : EReal) 0).toNat : ℝ) : EReal) = (((if 0 < c then 1 else 0) : ℝ) : EReal) := by
  by_cases hc : 0 < c
  · have hc' : (0 : ℝ) < (c : ℝ) := by exact_mod_cast hc
    have h1 : Ideal.cmp .ogt ((c : ℝ) : EReal) 0 = 1#1 := by
      simp only [Ideal.cmp]
      rw [decide_eq_true (by exact_mod_cast hc')]; rfl
    rw [h1, if_pos hc]; simp
  · have h0 : c = 0 := by omega
    subst h0
    have h1 : Ideal.cmp .ogt (((0 : ℕ) : ℝ) : EReal) 0 = 0#1 := by
      simp only [Ideal.cmp]
      rw [decide_eq_false (by simp)]; rfl
    rw [h1, if_neg hc]; simp

section Pure
variable {K I : Type} [Fintype K] [Fintype I] (hit : K → Prop) [DecidablePred hit]

/-- The degree: the number of hits, as an extended real. -/
theorem degree_eq :
    (0 + ∑ k, if hit k then (1 : EReal) else 0) = (((Finset.univ.filter hit).card : ℝ) : EReal) := by
  rw [zero_add, Finset.sum_ite, Finset.sum_const_zero, add_zero, Finset.sum_const]
  simp

/-- The law over the reals: summing the projected rows (each with the bias) over the hits and scaling by the
    guarded reciprocal of their number is projecting the scaled sum of the rows and adding the bias where
    there is a hit. -/
theorem real_law (H : K → I → ℝ) (W : I → ℝ) (bf : ℝ) :
    let c := (Finset.univ.filter hit).card
    let inv : ℝ := if 0 < c then 1 / (c : ℝ) else 0
    let gate : ℝ := if 0 < c then 1 else 0
    (∑ i, ((0 + ∑ k, if hit k then H k i else 0) * inv) * W i) + gate * bf
      = (0 + ∑ k, if hit k then ((∑ i, H k i * W i) + bf) else 0) * inv := by
  intro c inv gate
  simp only [zero_add, ← Finset.sum_filter]
  rw [Finset.sum_add_distrib, Finset.sum_const, add_mul, Finset.sum_comm, Finset.sum_mul]
  congr 1
  · refine Finset.sum_congr rfl fun i _ => ?_
    rw [Finset.sum_mul, Finset.sum_mul, Finset.sum_mul]
    refine Finset.sum_congr rfl fun k _ => ?_
    ring
  · show gate * bf = (c • bf) * inv
    by_cases hc : 0 < c
    · have hc' : (c : ℝ) ≠ 0 := by exact_mod_cast (ne_of_gt hc)
      simp only [gate, inv, if_pos hc, nsmul_eq_mul]
      field_simp
    · have h0 : c = 0 := by omega
      simp only [gate, inv, if_neg hc, h0]
      simp

end Pure

section PureE
variable {K I : Type} [Fintype K] [Fintype I] (hit : K → Prop) [DecidablePred hit]

/-- The law over the extended reals, for real-valued rows, weights and bias: with `n` the number of hits,
    `inv` its guarded reciprocal and `gate` its positivity as a float. -/
theorem ereal_law (H : K → I → ℝ) (W : I → ℝ) (bf : ℝ) (n inv gate : EReal)
    (hn : n = 0 + ∑ k, if hit k then (1 : EReal) else 0)
    (hinv : inv = Scalar.select (Ideal.cmp .ogt n 0) (Ideal.div 1 n) 0)
    (hgate : gate = (((Ideal.cmp .ogt n 0).toNat : ℝ) : EReal)) :
    (∑ i, ((0 + ∑ k, if hit k then (H k i : EReal) else 0) * inv) * (W i : EReal)) + gate * (bf : EReal)
      = (0 + ∑ k, if hit k then ((∑ i, (H k i : EReal) * (W i : EReal)) + (bf : EReal)) else 0) * inv := by
  rw [degree_eq] at hn
  subst hn
  rw [inv_count] at hinv
  rw [gate_count] at hgate
  subst hinv hgate
  have h := real_law hit H W bf
  simp only [zero_add] at h
  simp only [zero_add, coe_ite_zero, ← coe_finsum, ← EReal.coe_mul, ← EReal.coe_add]
  exact congrArg _ h

end PureE

/-! ## The printed dimension records are the row gather's and the row and scalar scatters' -/

theorem gather_rec :
    gather_S500000x64_S2000000x1_S2000000x64_1_0_n_n_0_1_164
      = RowGather.rowDims 500000 64 2000000 gather_S500000x64_S2000000x1_S2000000x64_1_0_n_n_0_1_164_wf := rfl

theorem scatter_row_rec :
    scatter_S100000x64_S2000000x1_S2000000x64_1_0_0_1
      = RowScatter.rowDims 100000 64 2000000 scatter_S100000x64_S2000000x1_S2000000x64_1_0_0_1_wf := rfl

theorem scatter_scalar_rec :
    scatter_S100000_S2000000x1_S2000000_n_0_0_1
      = RowScatter.scalarDims 100000 2000000 scatter_S100000_S2000000x1_S2000000_n_0_0_1_wf := rfl

/-! ## The shared stages at explicit coordinates -/

/-- The degree's scatter and the rows' scatter land by the same column indices. -/
theorem v13_eq_v33 (x1 : IVec S2x2000000 32) : val_main_v13 (F := Ideal) x1 = val_main_v33 (F := Ideal) x1 := rfl

/-- The hyperedge degree at `e`: zero plus one for every incidence whose column index is `e`. -/
theorem degree_at (x1 : IVec S2x2000000 32) (e : Fin 100000) :
    val_main_v14 (F := Ideal) x1 (ix1 e)
      = 0 + ∑ k : Fin 2000000,
          if (val_main_v33 (F := Ideal) x1 (ix2 k (0 : Fin 1))).toInt = (e.val : ℤ) then (1 : EReal) else 0 := by
  unfold val_main_v14
  rw [scatter_scalar_rec, RowScatter.scatterAdd_scalar_apply, val_main_v12_apply, val_main_cst_1_apply,
    Ideal.ofBits_def, Ideal.ofBits_zero_f32, v13_eq_v33]
  refine congrArg _ (Finset.sum_congr rfl fun k _ => ?_)
  rw [val_main_v8_apply, val_main_cst_apply, Ideal.ofBits_def, one_f32]

/-- The guarded reciprocal of the degree at `e`. -/
theorem inv_at (x1 : IVec S2x2000000 32) (e : Fin 100000) :
    val_main_v24 (F := Ideal) x1 (ix1 e)
      = Scalar.select (Ideal.cmp .ogt (val_main_v14 (F := Ideal) x1 (ix1 e)) 0)
          (Ideal.div 1 (val_main_v14 (F := Ideal) x1 (ix1 e))) 0 := by
  rw [val_main_v24_apply, val_main_v21_apply, val_main_v23_apply, val_main_v20_apply, val_main_cst_5_apply,
    val_main_v22_apply, val_main_cst_6_apply, val_main_call1_v1_apply, val_main_call1_v0_apply, val_main_cst_7_apply,
    Ideal.ofBits_def, Ideal.ofBits_def, Ideal.ofBits_zero_f32, one_f32, Ideal.hostDivf_def, Ideal.cmpf_def]

/-- The reciprocal broadcast along the channels reads the hyperedge's. -/
theorem v36_at (x1 : IVec S2x2000000 32) (e : Fin 100000) (i : Fin 64) :
    val_main_v36 (F := Ideal) x1 (ix2 e i) = val_main_v24 (F := Ideal) x1 (ix1 e) := by
  rw [val_main_v36_apply, val_main_v35_apply]
  refine congrArg _ (funext fun a => ?_)
  match a with
  | ⟨0, _⟩ => rfl

/-! ## Broadcasts at explicit coordinates -/

theorem bcast_col_at {α : Type} (y : S100000x1.Idx → α) (e : Fin 100000) (f : Fin 64) :
    broadcastInDim S100000x64 ![0, 1] bcast_S100000x1_S100000x64_0_1 y (ix2 e f) = y (ix2 e (0 : Fin 1)) :=
  broadcastInDim_apply _ bcast_S100000x1_S100000x64_0_1 y (ix2 e f) (ix2 e (0 : Fin 1)) (fun a => match a with
    | ⟨0, _⟩ => by show e.val = if (100000 : Nat) = 1 then 0 else e.val; rw [if_neg (by decide)]
    | ⟨1, _⟩ => by show 0 = if (1 : Nat) = 1 then 0 else f.val; rw [if_pos rfl])

theorem bcast_vec_at {α : Type} (y : S100000.Idx → α) (e : Fin 100000) :
    broadcastInDim S100000x1 ![0] bcast_S100000_S100000x1_0 y (ix2 e (0 : Fin 1)) = y (ix1 e) :=
  broadcastInDim_apply _ bcast_S100000_S100000x1_0 y (ix2 e (0 : Fin 1)) (ix1 e) (fun a => match a with
    | ⟨0, _⟩ => by show e.val = if (100000 : Nat) = 1 then 0 else e.val; rw [if_neg (by decide)])

theorem bcast_row_at {α : Type} (hb : S1x64.BroadcastsInDim S100000x64 (![0, 1] : Fin 2 → Fin S100000x64.rank))
    (y : S1x64.Idx → α) (e : Fin 100000) (f : Fin 64) :
    broadcastInDim S100000x64 ![0, 1] hb y (ix2 e f) = y (ix2 (0 : Fin 1) f) :=
  broadcastInDim_apply _ hb y (ix2 e f) (ix2 (0 : Fin 1) f) (fun a => match a with
    | ⟨0, _⟩ => by show 0 = if (1 : Nat) = 1 then 0 else e.val; rw [if_pos rfl]
    | ⟨1, _⟩ => by show f.val = if (64 : Nat) = 1 then 0 else f.val; rw [if_neg (by decide)])

theorem bcast_b_at {α : Type} (y : S64.Idx → α) (f : Fin 64) :
    broadcastInDim S1x64 ![1] bcast_S64_S1x64_1 y (ix2 (0 : Fin 1) f) = y (ix1 f) :=
  broadcastInDim_apply _ bcast_S64_S1x64_1 y (ix2 (0 : Fin 1) f) (ix1 f) (fun a => match a with
    | ⟨0, _⟩ => by show f.val = if (64 : Nat) = 1 then 0 else f.val; rw [if_neg (by decide)])

/-- A degree's positivity as a float, at a coordinate. -/
theorem gate_at (g z : FVec Ideal S100000 .f32) (e : Fin 100000) :
    uitofp (F := Ideal) .f32 (cmpf (F := Ideal) .ogt g z) (ix1 e)
      = (((Ideal.cmp .ogt (g (ix1 e)) (z (ix1 e))).toNat : ℝ) : EReal) := rfl

/-- The gated bias at `(e, f)`: the degree's positivity as a float, times the bias entry. -/
theorem kBias_at (b : FVec Ideal S64 .f32) (x1 : IVec S2x2000000 32) (e : Fin 100000) (f : Fin 64) :
    kBias (F := Ideal) b x1 (ix2 e f)
      = (((Ideal.cmp .ogt (val_main_v14 (F := Ideal) x1 (ix1 e)) 0).toNat : ℝ) : EReal) * b (ix1 f) := by
  unfold kBias
  rw [mulf_apply, bcast_col_at, bcast_vec_at, bcast_row_at, bcast_b_at, gate_at, val_main_v20_apply,
    val_main_cst_5_apply, Ideal.ofBits_def, Ideal.ofBits_zero_f32]

/-- A gathered row at explicit coordinates: the table's row at the clamped start index. -/
theorem gather_at {α : Type} (x : S500000x64.Idx → α) (idx : IVec S2000000x1 32) (k : Fin 2000000) (c : Fin 64) :
    Host.gather gather_S500000x64_S2000000x1_S2000000x64_1_0_n_n_0_1_164 x idx (ix2 k c)
      = x (ix2 (RowGather.clampRow 500000 (by decide) (idx (ix2 k (0 : Fin 1)))) c) := by
  rw [gather_rec]
  exact RowGather.gather_row_apply (by decide) _ x idx (ix2 k c)

/-- The aggregated, scaled rows at `(e, i)`. -/
theorem kS_at (h : FVec Ideal S500000x64 .f32) (x1 : IVec S2x2000000 32) (e : Fin 100000) (i : Fin 64) :
    kS (F := Ideal) h x1 (ix2 e i)
      = (0 + ∑ k : Fin 2000000,
          if (val_main_v33 (F := Ideal) x1 (ix2 k (0 : Fin 1))).toInt = (e.val : ℤ)
          then h (ix2 (RowGather.clampRow 500000 (by decide) (val_main_v30 (F := Ideal) x1 (ix2 k (0 : Fin 1)))) i)
          else 0)
        * val_main_v24 (F := Ideal) x1 (ix1 e) := by
  unfold kS
  rw [mulf_apply, v36_at, scatter_row_rec, RowScatter.scatterAdd_row_apply, val_main_v32_apply, val_main_cst_9_apply,
    Ideal.ofBits_def, Ideal.ofBits_zero_f32]
  simp only [gather_at]

theorem lidx_v4_ix2 (r : Fin 500000) (f k : Fin 64) : lidx_main_v4 (ix2 r f) k = ix2 r k := by
  funext a
  match a with
  | ⟨0, _⟩ => rfl
  | ⟨1, _⟩ => rfl

theorem ridx_v4_ix2 (r : Fin 500000) (f k : Fin 64) : ridx_main_v4 (ix2 r f) k = ix2 k f := by
  funext a
  match a with
  | ⟨0, _⟩ => rfl
  | ⟨1, _⟩ => rfl

theorem idx_v5_v6_ix2 (r : Fin 500000) (f : Fin 64) : idx_main_v5 (idx_main_v6 (ix2 r f)) = ix1 f := by
  funext a
  match a with
  | ⟨0, _⟩ => rfl

/-- The reference's layer output at `(e, f)`: the projected rows (each with the bias) summed over the hyperedge's
    incidences, scaled. -/
theorem ref_at (h : FVec Ideal S500000x64 .f32) (x1 : IVec S2x2000000 32) (W : FVec Ideal S64x64 .f32)
    (b : FVec Ideal S64 .f32) (e : Fin 100000) (f : Fin 64) :
    val_main_v37 (F := Ideal) h x1 W b (ix2 e f)
      = (0 + ∑ k : Fin 2000000,
          if (val_main_v33 (F := Ideal) x1 (ix2 k (0 : Fin 1))).toInt = (e.val : ℤ)
          then (∑ i : Fin 64,
              h (ix2 (RowGather.clampRow 500000 (by decide) (val_main_v30 (F := Ideal) x1 (ix2 k (0 : Fin 1)))) i)
                * W (ix2 i f)) + b (ix1 f)
          else 0)
        * val_main_v24 (F := Ideal) x1 (ix1 e) := by
  rw [val_main_v37_apply, Ideal.mulf_def, v36_at]
  unfold val_main_v34
  rw [scatter_row_rec, RowScatter.scatterAdd_row_apply, val_main_v32_apply, val_main_cst_9_apply,
    Ideal.ofBits_def, Ideal.ofBits_zero_f32]
  unfold val_main_v31
  simp only [gather_at, val_main_v7_apply, Ideal.addf_def, val_main_v4_apply, val_main_v6_apply, val_main_v5_apply,
    idx_v5_v6_ix2, lidx_v4_ix2, ridx_v4_ix2]

end LayerAux

open LayerAux

/-- Aggregate-then-project (with the gated bias) is the reference's project-then-aggregate. -/
theorem layer_law (h : FVec Ideal S500000x64 .f32) (x1 : IVec S2x2000000 32) (W : FVec Ideal S64x64 .f32)
    (b : FVec Ideal S64 .f32) (hh : AllReal h) (hW : AllReal W) (hb : AllReal b) :
    hedgeLinear (kS (F := Ideal) h x1) W (kBias (F := Ideal) b x1) = val_main_v37 (F := Ideal) h x1 W b := by
  -- every entry of the three arrays is the coercion of a real number
  obtain ⟨hr, rfl⟩ : ∃ hr : S500000x64.Idx → ℝ, h = fun j => ((hr j : ℝ) : EReal) :=
    ⟨fun j => (h j).toReal, funext fun j => (EReal.coe_toReal (hh j).1 (hh j).2).symm⟩
  obtain ⟨Wr, rfl⟩ : ∃ Wr : S64x64.Idx → ℝ, W = fun j => ((Wr j : ℝ) : EReal) :=
    ⟨fun j => (W j).toReal, funext fun j => (EReal.coe_toReal (hW j).1 (hW j).2).symm⟩
  obtain ⟨br, rfl⟩ : ∃ br : S64.Idx → ℝ, b = fun j => ((br j : ℝ) : EReal) :=
    ⟨fun j => (b j).toReal, funext fun j => (EReal.coe_toReal (hb j).1 (hb j).2).symm⟩
  funext j
  obtain ⟨e, f, rfl⟩ : ∃ (e : Fin 100000) (f : Fin 64), j = ix2 e f := ⟨j 0, j 1, eq_ix2 j⟩
  show (∑ i : Fin 64, kS (F := Ideal) (fun j => ((hr j : ℝ) : EReal)) x1 (ix2 e i) * ((Wr (ix2 i f) : ℝ) : EReal))
      + kBias (F := Ideal) (fun j => ((br j : ℝ) : EReal)) x1 (ix2 e f) = _
  rw [ref_at, kBias_at]
  simp only [kS_at]
  exact ereal_law
    (fun k : Fin 2000000 => (val_main_v33 (F := Ideal) x1 (ix2 k (0 : Fin 1))).toInt = (e.val : ℤ))
    (fun k i => hr (ix2 (RowGather.clampRow 500000 (by decide) (val_main_v30 (F := Ideal) x1 (ix2 k (0 : Fin 1)))) i))
    (fun i => Wr (ix2 i f)) (br (ix1 f)) _ _ _ (degree_at x1 e) (inv_at x1 e) rfl

end Cert.Bridge

end
-- ==== Proof.PoolLaw.lean ====
/-
  The one-hot contraction Σ_n [label n = g] · max(h[n, f], 0) is the segment sum of the rectified rows, as an
  equation between arrays at the ideal instance (a label outside 0 … 511 meets no g and is dropped by the scatter
  alike). No finiteness is needed: 0 · x = 0 and 1 · x = x on all extended reals.
-/
import proofs.«418423_j6476810682471_2_alg».proof.Proof.Spec
import proofs.«418423_j6476810682471_2_alg».proof.Proof.KTerms
import proofs.«418423_j6476810682471_2_alg».proof.Proof.LibGather
import proofs.«418423_j6476810682471_2_alg».proof.Proof.LibScatter
import Idealize.ShloMosaic.PureOps.Ideal.Laws

noncomputable section

namespace Cert.Bridge

open Cert.ReferenceIdeal Cert.ReferenceIdeal.Gen Cert.ReferenceIdeal.ReadP Idealize.ShloMosaic Idealize.ShloMosaic.ValueIdx
open Cert.Spec

/-- The pooling scatter's dimension numbers are those of a row scatter into 512 rows of width 64. -/
theorem pool_scatter_eq :
    scatter_S512x64_S500000x1_S500000x64_1_0_0_1
      = RowScatter.rowDims 512 64 500000 scatter_S512x64_S500000x1_S500000x64_1_0_0_1_wf := rfl

/-- A row number below 512 read back as a signed 32-bit word is itself. -/
theorem toInt_ofNat_row (g : Fin 512) : (BitVec.ofNat 32 g.val).toInt = (g.val : ℤ) := by
  have hg := g.isLt
  rw [BitVec.toInt_eq_toNat_cond, BitVec.toNat_ofNat]
  have h1 : g.val % 2 ^ 32 = g.val := Nat.mod_eq_of_lt (by omega)
  rw [h1, if_pos (by omega)]

/-- A 32-bit label is the word of row g exactly when its signed reading is g. -/
theorem label_iff (v : BitVec 32) (g : Fin 512) : v = BitVec.ofNat 32 g.val ↔ v.toInt = (g.val : ℤ) := by
  constructor
  · intro hv
    rw [hv, toInt_ofNat_row]
  · intro hv
    apply BitVec.eq_of_toInt_eq
    rw [hv, toInt_ofNat_row]

/-- The labels laid as a column read at (n, 0) are the label of n. -/
theorem labels_cast_apply (x2 : IVec S500000 32) (hc : S500000.ShapeCasts S500000x1) (n : Fin 500000) :
    shapeCast S500000x1 x2 hc (ix2 n (0 : Fin 1)) = x2 (ix1 n) := by
  apply shapeCast_apply
  rw [Shape.rowMajor_val_one, Shape.rowMajor_val_two]
  show n.val = n.val * 1 + 0
  omega

/-- The labels broadcast to a column read at (n, 0) are the label of n. -/
theorem labels_bcast_apply (x2 : IVec S500000 32) (n : Fin 500000) :
    val_main_v101 (F := Ideal) x2 (ix2 n (0 : Fin 1)) = x2 (ix1 n) := by
  rw [val_main_v101_apply]
  congr 1
  funext a
  match a with
  | ⟨0, _⟩ => rfl

/-- The scatter's operand is zero everywhere. -/
theorem pool_init_apply (g : Fin 512) (f : Fin 64) : val_main_v100 (F := Ideal) (ix2 g f) = 0 := by
  rw [val_main_v100_apply, val_main_cst_28_apply]
  exact Ideal.ofBits_zero_f32

/-- The scatter's updates are the rectified rows. -/
theorem pool_upd_apply (h : FVec Ideal S500000x64 .f32) (n : Fin 500000) (f : Fin 64) :
    maximumf h (val_main_call5_v0 (F := Ideal)) (ix2 n f) = max (h (ix2 n f)) 0 := by
  rw [maximumf_apply, val_main_call5_v0_apply, val_main_call5_cst_apply]
  exact congrArg (max (h (ix2 n f))) Ideal.ofBits_zero_f32

/-- The one-hot contraction of the rectified rows is their segment sum. -/
theorem pool_law (h : FVec Ideal S500000x64 .f32) (x2 : IVec S500000 32) :
    poolSum h (shapeCast S500000x1 x2 (by decide))
      = Host.scatterAdd scatter_S512x64_S500000x1_S500000x64_1_0_0_1 (val_main_v100 (F := Ideal)) (val_main_v101 (F := Ideal) x2)
          (maximumf h (val_main_call5_v0 (F := Ideal))) := by
  funext j
  obtain ⟨g, f, rfl⟩ : ∃ (g : Fin 512) (f : Fin 64), j = ix2 g f := ⟨j 0, j 1, eq_ix2 j⟩
  rw [pool_scatter_eq, RowScatter.scatterAdd_row_apply, pool_init_apply, zero_add]
  show (∑ n : Fin 500000,
      (if shapeCast S500000x1 x2 _ (ix2 n (0 : Fin 1)) = BitVec.ofNat 32 g.val then (1 : EReal) else 0)
        * max (h (ix2 n f)) 0) = _
  refine Finset.sum_congr rfl fun n _ => ?_
  rw [labels_cast_apply, labels_bcast_apply, pool_upd_apply]
  by_cases hc : x2 (ix1 n) = BitVec.ofNat 32 g.val
  · rw [if_pos hc, if_pos ((label_iff _ g).1 hc), one_mul]
  · rw [if_neg hc, if_neg (fun hi => hc ((label_iff _ g).2 hi)), zero_mul]

end Cert.Bridge

end
-- ==== Proof.FiniteLayer.lean ====
/-
  The first layer's output, rectified, is an array of real numbers when the layer's inputs are: sums, products and
  maxima of reals are real, a gathered row is a row of the table, and the guarded reciprocal of a degree is 1/n for a
  positive count n and 0 otherwise. This is what the second layer's distributivity needs.
-/
import proofs.«418423_j6476810682471_2_alg».proof.Proof.Spec
import proofs.«418423_j6476810682471_2_alg».proof.Proof.RefRead
import proofs.«418423_j6476810682471_2_alg».proof.Proof.LibGather
import proofs.«418423_j6476810682471_2_alg».proof.Proof.LibScatter
import Idealize.ShloMosaic.PureOps.Ideal.Laws

noncomputable section

namespace Cert.Bridge

open Idealize.ShloMosaic Idealize.ShloMosaic.ValueIdx Idealize.SL.Sem
open Cert.Spec

namespace FiniteLayer

/-! ## Real numbers among the extended reals -/

/-- `x` is a real number: neither `+∞` nor `−∞`. -/
def IsReal (x : EReal) : Prop := x ≠ ⊤ ∧ x ≠ ⊥

theorem isReal_coe (r : ℝ) : IsReal (r : EReal) := ⟨EReal.coe_ne_top r, EReal.coe_ne_bot r⟩

/-- A real extended real is the image of a real number. -/
theorem IsReal.exists {x : EReal} (h : IsReal x) : ∃ r : ℝ, x = (r : EReal) :=
  ⟨x.toReal, (EReal.coe_toReal h.1 h.2).symm⟩

theorem isReal_zero : IsReal (0 : EReal) := by
  rw [← EReal.coe_zero]; exact isReal_coe 0

theorem isReal_one : IsReal (1 : EReal) := by
  rw [← EReal.coe_one]; exact isReal_coe 1

/-- A sum of two reals is real. -/
theorem IsReal.add {x y : EReal} (hx : IsReal x) (hy : IsReal y) : IsReal (x + y) := by
  obtain ⟨a, rfl⟩ := hx.exists
  obtain ⟨b, rfl⟩ := hy.exists
  rw [← EReal.coe_add]; exact isReal_coe _

/-- A product of two reals is real. -/
theorem IsReal.mul {x y : EReal} (hx : IsReal x) (hy : IsReal y) : IsReal (x * y) := by
  obtain ⟨a, rfl⟩ := hx.exists
  obtain ⟨b, rfl⟩ := hy.exists
  rw [← EReal.coe_mul]; exact isReal_coe _

/-- The larger of two reals is one of them. -/
theorem IsReal.max {x y : EReal} (hx : IsReal x) (hy : IsReal y) : IsReal (max x y) := by
  rcases le_total x y with h | h
  · rw [max_eq_right h]; exact hy
  · rw [max_eq_left h]; exact hx

/-- A finite sum of reals is real. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem isReal_sum_univ {ι : Type} [Fintype ι] (f : ι → EReal) (h : ∀ i, IsReal (f i)) : IsReal (∑ i, f i) :=
  isReal_sum _ _ fun i _ => h i

/-- Either branch of a choice between reals is real. -/
theorem isReal_ite {c : Prop} [Decidable c] {x y : EReal} (hx : IsReal x) (hy : IsReal y) :
    IsReal (if c then x else y) := by
  split
  · exact hx
  · exact hy

/-- The reciprocal guarded by positivity, `1 / n` where `n > 0` and `0` elsewhere, is real for a real `n`: a positive
    real is not zero, so the quotient is the product of `1` with the real `1 / n`. -/
theorem isReal_guardedRecip {n : EReal} (hn : IsReal n) :
    IsReal (Scalar.select (Ideal.cmp .ogt n 0) (Ideal.div 1 n) 0) := by
  by_cases h : (0 : EReal) < n
  · have hc : Ideal.cmp .ogt n 0 = 1#1 := by
      show BitVec.ofBool (decide ((0 : EReal) < n)) = 1#1
      rw [decide_eq_true h]; rfl
    rw [hc, select_one]
    obtain ⟨r, rfl⟩ := hn.exists
    have hr : r ≠ 0 := by
      rintro rfl
      rw [EReal.coe_zero] at h
      exact lt_irrefl _ h
    rw [Ideal.div_coe hr, one_mul]
    exact isReal_coe _
  · have hc : Ideal.cmp .ogt n 0 = 0#1 := by
      show BitVec.ofBool (decide ((0 : EReal) < n)) = 0#1
      rw [decide_eq_false h]; rfl
    rw [hc, select_zero]
    exact isReal_zero

/-- The two float constants of the program: the pattern of all zero bits is `0`, and `0x3F800000` is `1`. -/
theorem ofBits_zero : FloatOps.ofBits (F := Ideal) .f32 0x00000000#32 = (0 : EReal) := Ideal.ofBits_zero_f32

theorem ofBits_one : FloatOps.ofBits (F := Ideal) .f32 0x3F800000#32 = (1 : EReal) := by
  show Ideal.ofBits .f32 0x3F800000#32 = 1
  simp [Ideal.ofBits, Ideal.ieee, -EReal.coe_mul]; norm_num

/-! ## Arrays of reals under the row gather and the accumulating scatters -/

/-- A gathered row is a row of the table: a gather of whole rows from an array of reals is an array of reals. -/
theorem allReal_gather_row {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → EReal) (idx : IVec ⟨2, ![E, 1]⟩ w) (hx : AllReal x) :
    AllReal (Host.gather (RowGather.rowDims N C E wf) x idx) := by
  intro j
  rw [RowGather.gather_row_apply hN]
  exact hx _

/-- An entry of an accumulating row scatter is the operand's entry plus a finite sum of update entries. -/
theorem isReal_scatter_row {N C E w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (hx : AllReal x) (hu : AllReal upd) (n : Fin N) (c : Fin C) :
    IsReal (Host.scatterAdd (RowScatter.rowDims N C E wf) x idx upd (ix2 n c)) := by
  rw [RowScatter.scatterAdd_row_apply]
  exact IsReal.add (hx _) (isReal_sum_univ _ fun k => isReal_ite (hu _) isReal_zero)

theorem allReal_scatter_row {N C E w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (hx : AllReal x) (hu : AllReal upd) :
    AllReal (Host.scatterAdd (RowScatter.rowDims N C E wf) x idx upd) := by
  intro j
  rw [eq_ix2 j]
  exact isReal_scatter_row wf x idx upd hx hu (j 0) (j 1)

/-- An entry of an accumulating scalar scatter is the operand's entry plus a finite sum of updates. -/
theorem isReal_scatter_scalar {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (hx : AllReal x) (hu : AllReal upd) (n : Fin N) :
    IsReal (Host.scatterAdd (RowScatter.scalarDims N E wf) x idx upd (ix1 n)) := by
  rw [RowScatter.scatterAdd_scalar_apply]
  exact IsReal.add (hx _) (isReal_sum_univ _ fun k => isReal_ite (hu _) isReal_zero)

theorem allReal_scatter_scalar {N E w : Nat}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32)
    (hx : AllReal x) (hu : AllReal upd) :
    AllReal (Host.scatterAdd (RowScatter.scalarDims N E wf) x idx upd) := by
  intro j
  rw [eq_ix1 j]
  exact isReal_scatter_scalar wf x idx upd hx hu (j 0)

/-! ## The program's stages, in order -/

section Stages

open Cert.ReferenceIdeal Cert.ReferenceIdeal.Gen Cert.ReferenceIdeal.ReadP

variable (x0 : FVec Ideal S500000x64 .f32) (x1 : IVec S2x2000000 32) (x3 : FVec Ideal S64x64 .f32)
  (x4 : FVec Ideal S64 .f32)

/-! The constant arrays: every entry is `0` or `1`. -/

theorem v8_eq (i : S2000000.Idx) : val_main_v8 (F := Ideal) i = (1 : EReal) := by
  rw [val_main_v8_apply, val_main_cst_apply, ofBits_one]
theorem v9_eq (i : S500000.Idx) : val_main_v9 (F := Ideal) i = (0 : EReal) := by
  rw [val_main_v9_apply, val_main_cst_0_apply, ofBits_zero]
theorem v12_eq (i : S100000.Idx) : val_main_v12 (F := Ideal) i = (0 : EReal) := by
  rw [val_main_v12_apply, val_main_cst_1_apply, ofBits_zero]
theorem v15_eq (i : S500000.Idx) : val_main_v15 (F := Ideal) i = (0 : EReal) := by
  rw [val_main_v15_apply, val_main_cst_2_apply, ofBits_zero]
theorem v17_eq (i : S500000.Idx) : val_main_v17 (F := Ideal) i = (1 : EReal) := by
  rw [val_main_v17_apply, val_main_cst_3_apply, ofBits_one]
theorem call0_v1_eq (i : S500000.Idx) : val_main_call0_v1 (F := Ideal) i = (0 : EReal) := by
  rw [val_main_call0_v1_apply, val_main_call0_v0_apply, val_main_cst_4_apply, ofBits_zero]
theorem v20_eq (i : S100000.Idx) : val_main_v20 (F := Ideal) i = (0 : EReal) := by
  rw [val_main_v20_apply, val_main_cst_5_apply, ofBits_zero]
theorem v22_eq (i : S100000.Idx) : val_main_v22 (F := Ideal) i = (1 : EReal) := by
  rw [val_main_v22_apply, val_main_cst_6_apply, ofBits_one]
theorem call1_v1_eq (i : S100000.Idx) : val_main_call1_v1 (F := Ideal) i = (0 : EReal) := by
  rw [val_main_call1_v1_apply, val_main_call1_v0_apply, val_main_cst_7_apply, ofBits_zero]
theorem v32_eq (i : S100000x64.Idx) : val_main_v32 (F := Ideal) i = (0 : EReal) := by
  rw [val_main_v32_apply, val_main_cst_9_apply, ofBits_zero]
theorem v45_eq (i : S500000x64.Idx) : val_main_v45 (F := Ideal) i = (0 : EReal) := by
  rw [val_main_v45_apply, val_main_cst_12_apply, ofBits_zero]
theorem call2_v0_eq (i : S500000x64.Idx) : val_main_call2_v0 (F := Ideal) i = (0 : EReal) := by
  rw [val_main_call2_v0_apply, val_main_call2_cst_apply, ofBits_zero]

/-! The two degree counts and their guarded reciprocals. -/

/-- The node degrees: a count of ones scattered onto zeros. -/
theorem real_v11 : AllReal (val_main_v11 (F := Ideal) x1) := by
  unfold val_main_v11
  exact allReal_scatter_scalar (N := 500000) (E := 2000000) _ _ _ _
    (fun i => by rw [v9_eq]; exact isReal_zero) (fun i => by rw [v8_eq]; exact isReal_one)

/-- The hyperedge degrees: a count of ones scattered onto zeros. -/
theorem real_v14 : AllReal (val_main_v14 (F := Ideal) x1) := by
  unfold val_main_v14
  exact allReal_scatter_scalar (N := 100000) (E := 2000000) _ _ _ _
    (fun i => by rw [v12_eq]; exact isReal_zero) (fun i => by rw [v8_eq]; exact isReal_one)

/-- The guarded reciprocal of the node degree. -/
theorem real_v19 : AllReal (val_main_v19 (F := Ideal) x1) := by
  intro i
  rw [val_main_v19_apply, val_main_v16_apply, val_main_v18_apply, v15_eq, v17_eq, call0_v1_eq]
  exact isReal_guardedRecip (real_v11 x1 i)

/-- The guarded reciprocal of the hyperedge degree. -/
theorem real_v24 : AllReal (val_main_v24 (F := Ideal) x1) := by
  intro i
  rw [val_main_v24_apply, val_main_v21_apply, val_main_v23_apply, v20_eq, v22_eq, call1_v1_eq]
  exact isReal_guardedRecip (real_v14 x1 i)

/-! The first projection: a product with the weight matrix plus the bias. -/

theorem real_v4 (h0 : AllReal x0) (h3 : AllReal x3) : AllReal (val_main_v4 (F := Ideal) x0 x3) := by
  intro i
  rw [val_main_v4_apply]
  exact isReal_sum_univ _ fun k => IsReal.mul (h0 _) (h3 _)

theorem real_v6 (h4 : AllReal x4) : AllReal (val_main_v6 (F := Ideal) x4) := by
  intro i
  rw [val_main_v6_apply, val_main_v5_apply]
  exact h4 _

theorem real_v7 (h0 : AllReal x0) (h3 : AllReal x3) (h4 : AllReal x4) :
    AllReal (val_main_v7 (F := Ideal) x0 x3 x4) := by
  intro i
  rw [val_main_v7_apply]
  exact IsReal.add (real_v4 x0 x3 h0 h3 i) (real_v6 x4 h4 i)

/-! Nodes to hyperedges: gather the node rows, sum them per hyperedge, scale by the hyperedge's reciprocal degree. -/

theorem real_v31 (h0 : AllReal x0) (h3 : AllReal x3) (h4 : AllReal x4) :
    AllReal (val_main_v31 (F := Ideal) x0 x1 x3 x4) := by
  unfold val_main_v31
  exact allReal_gather_row (N := 500000) (C := 64) (E := 2000000) (by omega) _ _ _ (real_v7 x0 x3 x4 h0 h3 h4)

theorem real_v34 (h0 : AllReal x0) (h3 : AllReal x3) (h4 : AllReal x4) :
    AllReal (val_main_v34 (F := Ideal) x0 x1 x3 x4) := by
  unfold val_main_v34
  exact allReal_scatter_row (N := 100000) (C := 64) (E := 2000000) _ _ _ _
    (fun i => by rw [v32_eq]; exact isReal_zero) (real_v31 x0 x1 x3 x4 h0 h3 h4)

theorem real_v36 : AllReal (val_main_v36 (F := Ideal) x1) := by
  intro i
  rw [val_main_v36_apply, val_main_v35_apply]
  exact real_v24 x1 _

theorem real_v37 (h0 : AllReal x0) (h3 : AllReal x3) (h4 : AllReal x4) :
    AllReal (val_main_v37 (F := Ideal) x0 x1 x3 x4) := by
  intro i
  rw [val_main_v37_apply]
  exact IsReal.mul (real_v34 x0 x1 x3 x4 h0 h3 h4 i) (real_v36 x1 i)

/-! Hyperedges back to nodes: gather the hyperedge rows, sum them per node, scale by the node's reciprocal degree. -/

theorem real_v44 (h0 : AllReal x0) (h3 : AllReal x3) (h4 : AllReal x4) :
    AllReal (val_main_v44 (F := Ideal) x0 x1 x3 x4) := by
  unfold val_main_v44
  exact allReal_gather_row (N := 100000) (C := 64) (E := 2000000) (by omega) _ _ _ (real_v37 x0 x1 x3 x4 h0 h3 h4)

theorem real_v47 (h0 : AllReal x0) (h3 : AllReal x3) (h4 : AllReal x4) :
    AllReal (val_main_v47 (F := Ideal) x0 x1 x3 x4) := by
  unfold val_main_v47
  exact allReal_scatter_row (N := 500000) (C := 64) (E := 2000000) _ _ _ _
    (fun i => by rw [v45_eq]; exact isReal_zero) (real_v44 x0 x1 x3 x4 h0 h3 h4)

theorem real_v49 : AllReal (val_main_v49 (F := Ideal) x1) := by
  intro i
  rw [val_main_v49_apply, val_main_v48_apply]
  exact real_v19 x1 _

theorem real_v50 (h0 : AllReal x0) (h3 : AllReal x3) (h4 : AllReal x4) :
    AllReal (val_main_v50 (F := Ideal) x0 x1 x3 x4) := by
  intro i
  rw [val_main_v50_apply]
  exact IsReal.mul (real_v47 x0 x1 x3 x4 h0 h3 h4 i) (real_v49 x1 i)

end Stages

end FiniteLayer

open Cert.ReferenceIdeal Cert.ReferenceIdeal.Gen Cert.ReferenceIdeal.ReadP in
/-- The first layer's rectified output is an array of real numbers when its inputs are. -/
theorem real_v51 (x0 : FVec Ideal S500000x64 .f32) (x1 : IVec S2x2000000 32) (x3 : FVec Ideal S64x64 .f32)
    (x4 : FVec Ideal S64 .f32) (h0 : AllReal x0) (h3 : AllReal x3) (h4 : AllReal x4) :
    AllReal (val_main_v51 (F := Ideal) x0 x1 x3 x4) := by
  intro i
  rw [val_main_v51_apply, FiniteLayer.call2_v0_eq]
  exact FiniteLayer.IsReal.max (FiniteLayer.real_v50 x0 x1 x3 x4 h0 h3 h4 i) FiniteLayer.isReal_zero

end Cert.Bridge

end
-- ==== Proof.KRead.lean ====
/-
  The contents of the program's result buffer after its run, as one function of the argument arrays — the SAME
  function the reference computes (its last stage, `val_main_v116`).

  The run crosses thirteen boundaries: stretches of host operations and three kernel calls. A stretch of host
  operations, read back over ANY contents `W` of the buffers it starts from, leaves each buffer at the operations'
  composed term of `W`'s entries (first part, at any float instance). At the ideal instance each projection call leaves
  `hedgeLinear` of its input arrays, which the layer law turns into the reference's project-then-aggregate stage,
  and the pooling call leaves `poolSum`, which is the reference's segment sum; everything else the two programs
  compute is the same text. Finiteness of the inputs enters only through the layer law (twice).
-/
import proofs.«418423_j6476810682471_2_alg».proof.Proof.Gen.KernelIdeal.Frame
import proofs.«418423_j6476810682471_2_alg».proof.Proof.KTerms
import proofs.«418423_j6476810682471_2_alg».proof.Proof.Spec
import proofs.«418423_j6476810682471_2_alg».proof.Proof.Region01
import proofs.«418423_j6476810682471_2_alg».proof.Proof.Region2
import proofs.«418423_j6476810682471_2_alg».proof.Proof.LayerLaw
import proofs.«418423_j6476810682471_2_alg».proof.Proof.PoolLaw
import proofs.«418423_j6476810682471_2_alg».proof.Proof.FiniteLayer
import Idealize.ShloMosaic.Lib.StableHlo.Run

set_option maxRecDepth 16384

noncomputable section

namespace Cert.KernelIdeal.KRead

open Cert.KernelIdeal Cert.KernelIdeal.Gen Idealize.ShloMosaic Idealize.ShloMosaic.TcCoe Idealize.SL.Sem
open Idealize.ShloMosaic.StableHlo
open Cert.ReferenceIdeal.ReadP Cert.Bridge Cert.Spec

/-! ## Host stretches over any starting contents -/

section Stretches

variable {F : FTy → Type} [FloatOps F] (W : Valuation τ sig (Elt F))

/-- The five stretches before the first projection call, in order. -/
abbrev afterS0 : Valuation τ sig (Elt F) :=
  StableHlo.after hostOps0_4 (StableHlo.after hostOps0_3 (StableHlo.after hostOps0_2 (StableHlo.after hostOps0_1 (StableHlo.after hostOps0 W))))
/-- The three stretches between the two projection calls. -/
abbrev afterS1 : Valuation τ sig (Elt F) :=
  StableHlo.after hostOps1_2 (StableHlo.after hostOps1_1 (StableHlo.after hostOps1 W))

/-- Reads one buffer through literal stretches: the operations' results composed, typed-reference casts removed. -/
local macro "read_stretch" : tactic =>
  `(tactic| (after_results_simp <;> first | rfl | (simp only [TRef.ofBuf, TRef.toBuf, cast_eq]; rfl)))

set_option maxHeartbeats 4000000 in
/-- The first call's aggregated rows. -/
theorem S0_v36 : afterS0 W (Proc.devRef .tc main_v36)
    = kS (F := F) (W (Proc.devRef .tc main_arg0)) (W (Proc.devRef .tc main_arg1)) := by
  simp only [afterS0, hostOps0, hostOps0_1, hostOps0_2, hostOps0_3, hostOps0_4]
  read_stretch

set_option maxHeartbeats 4000000 in
/-- The first call's gated bias. -/
theorem S0_v41 : afterS0 W (Proc.devRef .tc main_v41)
    = kBias (F := F) (W (Proc.devRef .tc main_arg4)) (W (Proc.devRef .tc main_arg1)) := by
  simp only [afterS0, hostOps0, hostOps0_1, hostOps0_2, hostOps0_3, hostOps0_4]
  read_stretch

set_option maxHeartbeats 4000000 in
theorem S0_v1 : afterS0 W (Proc.devRef .tc main_v1) = val_main_v1 (F := F) (W (Proc.devRef .tc main_arg1)) := by
  simp only [afterS0, hostOps0, hostOps0_1, hostOps0_2, hostOps0_3, hostOps0_4]
  read_stretch
set_option maxHeartbeats 4000000 in
theorem S0_v3 : afterS0 W (Proc.devRef .tc main_v3) = val_main_v3 (F := F) (W (Proc.devRef .tc main_arg1)) := by
  simp only [afterS0, hostOps0, hostOps0_1, hostOps0_2, hostOps0_3, hostOps0_4]
  read_stretch
set_option maxHeartbeats 4000000 in
/-- The guarded reciprocal of the node degrees. -/
theorem S0_v15 : afterS0 W (Proc.devRef .tc main_v15) = val_main_v19 (F := F) (W (Proc.devRef .tc main_arg1)) := by
  simp only [afterS0, hostOps0, hostOps0_1, hostOps0_2, hostOps0_3, hostOps0_4]
  read_stretch
set_option maxHeartbeats 4000000 in
/-- The guarded reciprocal of the hyperedge degrees. -/
theorem S0_v20 : afterS0 W (Proc.devRef .tc main_v20) = val_main_v24 (F := F) (W (Proc.devRef .tc main_arg1)) := by
  simp only [afterS0, hostOps0, hostOps0_1, hostOps0_2, hostOps0_3, hostOps0_4]
  read_stretch
set_option maxHeartbeats 4000000 in
/-- The gate: a hyperedge's degree is positive, as a float. -/
theorem S0_v23 : afterS0 W (Proc.devRef .tc main_v23)
    = uitofp (F := F) .f32 (cmpf (F := F) .ogt (val_main_v14 (F := F) (W (Proc.devRef .tc main_arg1))) (val_main_v20 (F := F))) := by
  simp only [afterS0, hostOps0, hostOps0_1, hostOps0_2, hostOps0_3, hostOps0_4]
  read_stretch

set_option maxHeartbeats 4000000 in
/-- No operation of these stretches writes an argument. -/
theorem S0_args : afterS0 W (Proc.devRef .tc main_arg2) = W (Proc.devRef .tc main_arg2)
    ∧ afterS0 W (Proc.devRef .tc main_arg3) = W (Proc.devRef .tc main_arg3)
    ∧ afterS0 W (Proc.devRef .tc main_arg5) = W (Proc.devRef .tc main_arg5)
    ∧ afterS0 W (Proc.devRef .tc main_arg6) = W (Proc.devRef .tc main_arg6)
    ∧ afterS0 W (Proc.devRef .tc main_arg7) = W (Proc.devRef .tc main_arg7)
    ∧ afterS0 W (Proc.devRef .tc main_arg8) = W (Proc.devRef .tc main_arg8) := by
  simp only [afterS0, hostOps0, hostOps0_1, hostOps0_2, hostOps0_3, hostOps0_4]
  refine ⟨?_, ?_, ?_, ?_, ?_, ?_⟩ <;> read_stretch

variable (a0 : FVec F Cert.ReferenceIdeal.S500000x64 .f32) (a1 : IVec Cert.ReferenceIdeal.S2x2000000 32)
  (a2 : IVec Cert.ReferenceIdeal.S500000 32)
  (a3 : FVec F Cert.ReferenceIdeal.S64x64 .f32) (a4 : FVec F Cert.ReferenceIdeal.S64 .f32)
  (a5 : FVec F Cert.ReferenceIdeal.S64x64 .f32) (a6 : FVec F Cert.ReferenceIdeal.S64 .f32)
  (a7 : FVec F Cert.ReferenceIdeal.S64x1 .f32) (a8 : FVec F Cert.ReferenceIdeal.S1 .f32)

set_option maxHeartbeats 4000000 in
/-- The second call's aggregated rows: the first layer's rectified output gathered, summed, scaled. -/
theorem S1_v69 (h42 : W (Proc.devRef .tc main_v42) = val_main_v37 (F := F) a0 a1 a3 a4)
    (h1 : W (Proc.devRef .tc main_v1) = val_main_v1 (F := F) a1) (h3 : W (Proc.devRef .tc main_v3) = val_main_v3 (F := F) a1)
    (h15 : W (Proc.devRef .tc main_v15) = val_main_v19 (F := F) a1) (h20 : W (Proc.devRef .tc main_v20) = val_main_v24 (F := F) a1) :
    afterS1 W (Proc.devRef .tc main_v69) = kS (F := F) (val_main_v51 (F := F) a0 a1 a3 a4) a1 := by
  simp only [afterS1, hostOps1, hostOps1_1, hostOps1_2]
  after_results_simp
  rw [h42, h1, h3, h15, h20]
  first | rfl | (simp only [TRef.ofBuf, TRef.toBuf, cast_eq]; rfl)

set_option maxHeartbeats 4000000 in
/-- The second call's gated bias. -/
theorem S1_v74 (h23 : W (Proc.devRef .tc main_v23)
      = uitofp (F := F) .f32 (cmpf (F := F) .ogt (val_main_v14 (F := F) a1) (val_main_v20 (F := F))))
    (h6 : W (Proc.devRef .tc main_arg6) = a6) :
    afterS1 W (Proc.devRef .tc main_v74) = kBias (F := F) a6 a1 := by
  simp only [afterS1, hostOps1, hostOps1_1, hostOps1_2]
  after_results_simp
  rw [h23, h6]
  first | rfl | (simp only [TRef.ofBuf, TRef.toBuf, cast_eq]; rfl)

set_option maxHeartbeats 4000000 in
/-- What these stretches leave untouched. -/
theorem S1_keeps : afterS1 W (Proc.devRef .tc main_v1) = W (Proc.devRef .tc main_v1)
    ∧ afterS1 W (Proc.devRef .tc main_v3) = W (Proc.devRef .tc main_v3)
    ∧ afterS1 W (Proc.devRef .tc main_v15) = W (Proc.devRef .tc main_v15)
    ∧ afterS1 W (Proc.devRef .tc main_arg2) = W (Proc.devRef .tc main_arg2)
    ∧ afterS1 W (Proc.devRef .tc main_arg5) = W (Proc.devRef .tc main_arg5)
    ∧ afterS1 W (Proc.devRef .tc main_arg7) = W (Proc.devRef .tc main_arg7)
    ∧ afterS1 W (Proc.devRef .tc main_arg8) = W (Proc.devRef .tc main_arg8) := by
  simp only [afterS1, hostOps1, hostOps1_1, hostOps1_2]
  refine ⟨?_, ?_, ?_, ?_, ?_, ?_, ?_⟩ <;> read_stretch

set_option maxHeartbeats 4000000 in
/-- The pooling call's feature array: the second layer's output, not yet rectified. -/
theorem S2_v88 (h75 : W (Proc.devRef .tc main_v75) = val_main_v85 (F := F) a0 a1 a3 a4 a5 a6)
    (h1 : W (Proc.devRef .tc main_v1) = val_main_v1 (F := F) a1) (h3 : W (Proc.devRef .tc main_v3) = val_main_v3 (F := F) a1)
    (h15 : W (Proc.devRef .tc main_v15) = val_main_v19 (F := F) a1) :
    StableHlo.after hostOps2 W (Proc.devRef .tc main_v88) = val_main_v98 (F := F) a0 a1 a3 a4 a5 a6 := by
  simp only [hostOps2]
  after_results_simp
  rw [h75, h1, h3, h15]
  first | rfl | (simp only [TRef.ofBuf, TRef.toBuf, cast_eq]; rfl)

set_option maxHeartbeats 4000000 in
/-- The pooling call's label column: the labels as a column. -/
theorem S2_v89 (h2 : W (Proc.devRef .tc main_arg2) = a2) :
    StableHlo.after hostOps2 W (Proc.devRef .tc main_v89)
      = shapeCast Cert.ReferenceIdeal.S500000x1 a2 (by decide) := by
  simp only [hostOps2]
  after_results_simp
  rw [h2]
  first | rfl | (simp only [TRef.ofBuf, TRef.toBuf, cast_eq]; rfl)

set_option maxHeartbeats 4000000 in
theorem S2_keeps : StableHlo.after hostOps2 W (Proc.devRef .tc main_arg2) = W (Proc.devRef .tc main_arg2)
    ∧ StableHlo.after hostOps2 W (Proc.devRef .tc main_arg7) = W (Proc.devRef .tc main_arg7)
    ∧ StableHlo.after hostOps2 W (Proc.devRef .tc main_arg8) = W (Proc.devRef .tc main_arg8) := by
  simp only [hostOps2]
  refine ⟨?_, ?_, ?_⟩ <;> read_stretch

set_option maxHeartbeats 4000000 in
/-- The result: per-graph sums over counts, projected to one channel, plus the last bias — the reference's last stage. -/
theorem S3_v104 (h90 : W (Proc.devRef .tc main_v90) = val_main_v102 (F := F) a0 a1 a2 a3 a4 a5 a6)
    (h2 : W (Proc.devRef .tc main_arg2) = a2) (h7 : W (Proc.devRef .tc main_arg7) = a7)
    (h8 : W (Proc.devRef .tc main_arg8) = a8) :
    StableHlo.after hostOps3 W (Proc.devRef .tc main_v104) = val_main_v116 (F := F) a0 a1 a2 a3 a4 a5 a6 a7 a8 := by
  simp only [hostOps3]
  after_results_simp
  rw [h90, h2, h7, h8]
  first | rfl | (simp only [TRef.ofBuf, TRef.toBuf, cast_eq]; rfl)

end Stretches

/-! ## The reference's recomputed stages are the first layer's -/

section Restated

variable {F : FTy → Type} [FloatOps F]
  (a0 : FVec F Cert.ReferenceIdeal.S500000x64 .f32) (a1 : IVec Cert.ReferenceIdeal.S2x2000000 32)
  (a2 : IVec Cert.ReferenceIdeal.S500000 32)
  (a3 : FVec F Cert.ReferenceIdeal.S64x64 .f32) (a4 : FVec F Cert.ReferenceIdeal.S64 .f32)
  (a5 : FVec F Cert.ReferenceIdeal.S64x64 .f32) (a6 : FVec F Cert.ReferenceIdeal.S64 .f32)

/-- The reference's second layer is its first layer's function at the rectified first output (it recomputes the
    degrees, their reciprocals and the gather indices by the same operations). -/
theorem v85_eq : val_main_v85 (F := F) a0 a1 a3 a4 a5 a6
    = val_main_v37 (F := F) (val_main_v51 (F := F) a0 a1 a3 a4) a1 a5 a6 := rfl

/-- The reference's pooled sums: the segment sum of the rectified second output. -/
theorem v102_eq : val_main_v102 (F := F) a0 a1 a2 a3 a4 a5 a6
    = Host.scatterAdd Cert.ReferenceIdeal.scatter_S512x64_S500000x1_S500000x64_1_0_0_1 (val_main_v100 (F := F)) (val_main_v101 (F := F) a2)
        (maximumf (val_main_v98 (F := F) a0 a1 a3 a4 a5 a6) (val_main_call5_v0 (F := F))) := rfl

end Restated

/-! ## The run's boundaries at the ideal instance -/

section Chain

variable (m : (ℓ : Loc nD τ sig) → Buf (Elt Ideal) ℓ) (ρ : Dev nD → PrngReg) (c : Dev nD)

/-- An argument array as launched. -/
abbrev arg (b : Ref sig .tc) : Buf (Elt Ideal) ((c.tc : Thread nD τ).loc b) := m ((c.tc : Thread nD τ).loc b)

/-! ### At the first projection call's entry -/

theorem r5_v36 : W5 m ρ c (Proc.devRef .tc main_v36) = kS (F := Ideal) (arg m c main_arg0) (arg m c main_arg1) := S0_v36 (W0 m ρ c)
theorem r5_v41 : W5 m ρ c (Proc.devRef .tc main_v41) = kBias (F := Ideal) (arg m c main_arg4) (arg m c main_arg1) := S0_v41 (W0 m ρ c)
theorem r5_arg3 : W5 m ρ c (Proc.devRef .tc main_arg3) = arg m c main_arg3 := (S0_args (W0 m ρ c)).2.1

/-! ### After the first projection call -/

variable (h0 : AllReal (arg m c main_arg0)) (h3 : AllReal (arg m c main_arg3)) (h4 : AllReal (arg m c main_arg4))
  (h5 : AllReal (arg m c main_arg5)) (h6 : AllReal (arg m c main_arg6))

include h0 h3 h4 in
/-- The first call's output is the reference's first project-then-aggregate stage. -/
theorem r6_v42 : W6 m ρ c (Proc.devRef .tc main_v42)
    = val_main_v37 (F := Ideal) (arg m c main_arg0) (arg m c main_arg1) (arg m c main_arg3) (arg m c main_arg4) := by
  refine (W6_arr m ρ c 3).trans ((RegionVal.arr0 (V5 m ρ) c).trans ?_)
  show hedgeLinear (W5 m ρ c (Proc.devRef .tc main_v36)) (W5 m ρ c (Proc.devRef .tc main_arg3)) (W5 m ρ c (Proc.devRef .tc main_v41)) = _
  rw [r5_v36, r5_arg3, r5_v41]
  exact layer_law _ _ _ _ h0 h3 h4

theorem r6_v1 : W6 m ρ c (Proc.devRef .tc main_v1) = val_main_v1 (F := Ideal) (arg m c main_arg1) :=
  (W6_of_ne m ρ c main_v1 (by decide)).trans (S0_v1 (W0 m ρ c))
theorem r6_v3 : W6 m ρ c (Proc.devRef .tc main_v3) = val_main_v3 (F := Ideal) (arg m c main_arg1) :=
  (W6_of_ne m ρ c main_v3 (by decide)).trans (S0_v3 (W0 m ρ c))
theorem r6_v15 : W6 m ρ c (Proc.devRef .tc main_v15) = val_main_v19 (F := Ideal) (arg m c main_arg1) :=
  (W6_of_ne m ρ c main_v15 (by decide)).trans (S0_v15 (W0 m ρ c))
theorem r6_v20 : W6 m ρ c (Proc.devRef .tc main_v20) = val_main_v24 (F := Ideal) (arg m c main_arg1) :=
  (W6_of_ne m ρ c main_v20 (by decide)).trans (S0_v20 (W0 m ρ c))
theorem r6_v23 : W6 m ρ c (Proc.devRef .tc main_v23)
    = uitofp (F := Ideal) .f32 (cmpf (F := Ideal) (φ := .f32) .ogt (val_main_v14 (F := Ideal) (arg m c main_arg1)) (val_main_v20 (F := Ideal))) :=
  (W6_of_ne m ρ c main_v23 (by decide)).trans (S0_v23 (W0 m ρ c))
theorem r6_arg2 : W6 m ρ c (Proc.devRef .tc main_arg2) = arg m c main_arg2 :=
  (W6_of_ne m ρ c main_arg2 (by decide)).trans (S0_args (W0 m ρ c)).1
theorem r6_arg5 : W6 m ρ c (Proc.devRef .tc main_arg5) = arg m c main_arg5 :=
  (W6_of_ne m ρ c main_arg5 (by decide)).trans (S0_args (W0 m ρ c)).2.2.1
theorem r6_arg6 : W6 m ρ c (Proc.devRef .tc main_arg6) = arg m c main_arg6 :=
  (W6_of_ne m ρ c main_arg6 (by decide)).trans (S0_args (W0 m ρ c)).2.2.2.1
theorem r6_arg7 : W6 m ρ c (Proc.devRef .tc main_arg7) = arg m c main_arg7 :=
  (W6_of_ne m ρ c main_arg7 (by decide)).trans (S0_args (W0 m ρ c)).2.2.2.2.1
theorem r6_arg8 : W6 m ρ c (Proc.devRef .tc main_arg8) = arg m c main_arg8 :=
  (W6_of_ne m ρ c main_arg8 (by decide)).trans (S0_args (W0 m ρ c)).2.2.2.2.2

/-! ### At the second projection call's entry -/

include h0 h3 h4 in
theorem r9_v69 : W9 m ρ c (Proc.devRef .tc main_v69)
    = kS (F := Ideal) (val_main_v51 (F := Ideal) (arg m c main_arg0) (arg m c main_arg1) (arg m c main_arg3) (arg m c main_arg4)) (arg m c main_arg1) :=
  S1_v69 (W6 m ρ c) _ _ _ _ (r6_v42 m ρ c h0 h3 h4) (r6_v1 m ρ c) (r6_v3 m ρ c) (r6_v15 m ρ c) (r6_v20 m ρ c)
theorem r9_v74 : W9 m ρ c (Proc.devRef .tc main_v74) = kBias (F := Ideal) (arg m c main_arg6) (arg m c main_arg1) :=
  S1_v74 (W6 m ρ c) _ _ (r6_v23 m ρ c) (r6_arg6 m ρ c)
theorem r9_arg5 : W9 m ρ c (Proc.devRef .tc main_arg5) = arg m c main_arg5 :=
  (S1_keeps (W6 m ρ c)).2.2.2.2.1.trans (r6_arg5 m ρ c)
theorem r9_v1 : W9 m ρ c (Proc.devRef .tc main_v1) = val_main_v1 (F := Ideal) (arg m c main_arg1) :=
  (S1_keeps (W6 m ρ c)).1.trans (r6_v1 m ρ c)
theorem r9_v3 : W9 m ρ c (Proc.devRef .tc main_v3) = val_main_v3 (F := Ideal) (arg m c main_arg1) :=
  (S1_keeps (W6 m ρ c)).2.1.trans (r6_v3 m ρ c)
theorem r9_v15 : W9 m ρ c (Proc.devRef .tc main_v15) = val_main_v19 (F := Ideal) (arg m c main_arg1) :=
  (S1_keeps (W6 m ρ c)).2.2.1.trans (r6_v15 m ρ c)
theorem r9_arg2 : W9 m ρ c (Proc.devRef .tc main_arg2) = arg m c main_arg2 :=
  (S1_keeps (W6 m ρ c)).2.2.2.1.trans (r6_arg2 m ρ c)
theorem r9_arg7 : W9 m ρ c (Proc.devRef .tc main_arg7) = arg m c main_arg7 :=
  (S1_keeps (W6 m ρ c)).2.2.2.2.2.1.trans (r6_arg7 m ρ c)
theorem r9_arg8 : W9 m ρ c (Proc.devRef .tc main_arg8) = arg m c main_arg8 :=
  (S1_keeps (W6 m ρ c)).2.2.2.2.2.2.trans (r6_arg8 m ρ c)

/-! ### After the second projection call -/

include h0 h3 h4 h5 h6 in
/-- The second call's output is the reference's second project-then-aggregate stage: the layer law at the first
    layer's rectified output, an array of real numbers. -/
theorem r10_v75 : W10 m ρ c (Proc.devRef .tc main_v75)
    = val_main_v85 (F := Ideal) (arg m c main_arg0) (arg m c main_arg1) (arg m c main_arg3) (arg m c main_arg4)
        (arg m c main_arg5) (arg m c main_arg6) := by
  refine (W10_arr m ρ c 3).trans ((RegionVal.arr1 (V9 m ρ) c).trans ?_)
  show hedgeLinear (W9 m ρ c (Proc.devRef .tc main_v69)) (W9 m ρ c (Proc.devRef .tc main_arg5)) (W9 m ρ c (Proc.devRef .tc main_v74)) = _
  rw [r9_v69 m ρ c h0 h3 h4, r9_arg5, r9_v74, v85_eq]
  exact layer_law _ _ _ _ (real_v51 _ _ _ _ h0 h3 h4) h5 h6

theorem r10_v1 : W10 m ρ c (Proc.devRef .tc main_v1) = val_main_v1 (F := Ideal) (arg m c main_arg1) :=
  (W10_of_ne m ρ c main_v1 (by decide)).trans (r9_v1 m ρ c)
theorem r10_v3 : W10 m ρ c (Proc.devRef .tc main_v3) = val_main_v3 (F := Ideal) (arg m c main_arg1) :=
  (W10_of_ne m ρ c main_v3 (by decide)).trans (r9_v3 m ρ c)
theorem r10_v15 : W10 m ρ c (Proc.devRef .tc main_v15) = val_main_v19 (F := Ideal) (arg m c main_arg1) :=
  (W10_of_ne m ρ c main_v15 (by decide)).trans (r9_v15 m ρ c)
theorem r10_arg2 : W10 m ρ c (Proc.devRef .tc main_arg2) = arg m c main_arg2 :=
  (W10_of_ne m ρ c main_arg2 (by decide)).trans (r9_arg2 m ρ c)
theorem r10_arg7 : W10 m ρ c (Proc.devRef .tc main_arg7) = arg m c main_arg7 :=
  (W10_of_ne m ρ c main_arg7 (by decide)).trans (r9_arg7 m ρ c)
theorem r10_arg8 : W10 m ρ c (Proc.devRef .tc main_arg8) = arg m c main_arg8 :=
  (W10_of_ne m ρ c main_arg8 (by decide)).trans (r9_arg8 m ρ c)

/-! ### At the pooling call's entry, and after it -/

include h0 h3 h4 h5 h6 in
theorem r11_v88 : W11 m ρ c (Proc.devRef .tc main_v88)
    = val_main_v98 (F := Ideal) (arg m c main_arg0) (arg m c main_arg1) (arg m c main_arg3) (arg m c main_arg4)
        (arg m c main_arg5) (arg m c main_arg6) :=
  S2_v88 (W10 m ρ c) _ _ _ _ _ _ (r10_v75 m ρ c h0 h3 h4 h5 h6) (r10_v1 m ρ c) (r10_v3 m ρ c) (r10_v15 m ρ c)
theorem r11_v89 : W11 m ρ c (Proc.devRef .tc main_v89)
    = shapeCast (s := Cert.ReferenceIdeal.S500000) Cert.ReferenceIdeal.S500000x1 (arg m c main_arg2) (by decide) :=
  S2_v89 (W10 m ρ c) _ (r10_arg2 m ρ c)

include h0 h3 h4 h5 h6 in
/-- The pooling call's output is the reference's segment sum of the rectified second output. -/
theorem r12_v90 : W12 m ρ c (Proc.devRef .tc main_v90)
    = val_main_v102 (F := Ideal) (arg m c main_arg0) (arg m c main_arg1) (arg m c main_arg2) (arg m c main_arg3)
        (arg m c main_arg4) (arg m c main_arg5) (arg m c main_arg6) := by
  refine (W12_arr m ρ c 2).trans ((RegionVal.arr2 (V11 m ρ) c).trans ?_)
  show poolSum (W11 m ρ c (Proc.devRef .tc main_v88)) (W11 m ρ c (Proc.devRef .tc main_v89)) = _
  rw [r11_v88 m ρ c h0 h3 h4 h5 h6, r11_v89, v102_eq]
  exact pool_law _ _

theorem r12_arg2 : W12 m ρ c (Proc.devRef .tc main_arg2) = arg m c main_arg2 :=
  (W12_of_ne m ρ c main_arg2 (by decide)).trans ((S2_keeps (W10 m ρ c)).1.trans (r10_arg2 m ρ c))
theorem r12_arg7 : W12 m ρ c (Proc.devRef .tc main_arg7) = arg m c main_arg7 :=
  (W12_of_ne m ρ c main_arg7 (by decide)).trans ((S2_keeps (W10 m ρ c)).2.1.trans (r10_arg7 m ρ c))
theorem r12_arg8 : W12 m ρ c (Proc.devRef .tc main_arg8) = arg m c main_arg8 :=
  (W12_of_ne m ρ c main_arg8 (by decide)).trans ((S2_keeps (W10 m ρ c)).2.2.trans (r10_arg8 m ρ c))

/-! ### The result -/

include h0 h3 h4 h5 h6 in
/-- After the run the result buffer holds the reference's last stage of the argument arrays. -/
theorem result_eq : W13 m ρ c (Proc.devRef .tc main_v104)
    = val_main_v116 (F := Ideal) (arg m c main_arg0) (arg m c main_arg1) (arg m c main_arg2) (arg m c main_arg3)
        (arg m c main_arg4) (arg m c main_arg5) (arg m c main_arg6) (arg m c main_arg7) (arg m c main_arg8) :=
  S3_v104 (W12 m ρ c) _ _ _ _ _ _ _ _ _ (r12_v90 m ρ c h0 h3 h4 h5 h6) (r12_arg2 m ρ c) (r12_arg7 m ρ c) (r12_arg8 m ρ c)

end Chain

end Cert.KernelIdeal.KRead

end
-- ==== Proof.FinitePre.lean ====
/-
  The precondition says every float input is finite: read out entry by entry, the node features, both weight
  matrices and both biases hold real numbers (|x| < +∞ on the extended reals excludes +∞ and −∞).
-/
import proofs.«418423_j6476810682471_2_alg».proof.Defs
import proofs.«418423_j6476810682471_2_alg».proof.Proof.Gen.KernelIdeal
import proofs.«418423_j6476810682471_2_alg».proof.Proof.Gen.Pre_finite_inputs
import proofs.«418423_j6476810682471_2_alg».proof.Proof.Spec
import Idealize.ShloMosaic.Lib.ReduceAll

noncomputable section

namespace Cert.Bridge

open Idealize.ShloMosaic Idealize.ShloMosaic.ValueIdx Idealize.SL.Sem
open Cert.Spec

/-- The f32 pattern with all exponent bits set and a zero fraction denotes +∞, the top of the extended reals. -/
private theorem ofBits_inf : Ideal.ofBits .f32 0x7F800000#32 = (⊤ : EReal) := by simp [Ideal.ofBits, Ideal.ieee]

/-- An extended real whose absolute value max(x, −x) lies strictly below +∞ is neither +∞ nor −∞:
    x < +∞ excludes +∞, and −x < +∞ excludes −∞. -/
private theorem real_of_abs_lt (x : EReal)
    (h : Ideal.cmp .olt (max x (-x)) (Ideal.ofBits .f32 0x7F800000#32) = 1#1) : x ≠ ⊤ ∧ x ≠ ⊥ := by
  rw [ofBits_inf] at h
  unfold Ideal.cmp at h
  have hlt : max x (-x) < ⊤ := by
    by_contra hn
    simp [hn] at h
  rw [max_lt_iff] at hlt
  refine ⟨ne_of_lt hlt.1, ?_⟩
  intro hb
  rw [hb] at hlt
  simp at hlt

/-- If the test "|x i| < +∞ for every i", folded by conjunction over all axes into a single bit, comes out true,
    then every entry of x is a real number. -/
private theorem allReal_of_all {s u : Shape} {axes : List (Fin s.rank)}
    (hb : (⟨0, ![]⟩ : Shape).BroadcastsInDim s ![]) (x : FVec Ideal s .f32) (init : u.Idx → BitVec 1)
    (hr : s.ReducesTo axes ⟨0, ![]⟩) (hu : 0 < u.numel) (j : (⟨0, ![]⟩ : Shape).Idx)
    (e : Host.reduce IntOp.andi
          (cmpf .olt (Host.absf x) (broadcastInDim s ![] hb (constant ⟨0, ![]⟩ .f32 0x7F800000#32))) init hr hu j = 1#1) :
    AllReal x := by
  -- the result of the fold has exactly one index: an index of a rank-0 array has no coordinates
  haveI : Subsingleton (⟨0, ![]⟩ : Shape).Idx := ⟨fun a b => funext fun d => d.elim0⟩
  intro i
  exact real_of_abs_lt (x i) (Host.reduce_andi_all _ init hr hu j e i)

/-- A conjunction of two one-bit arrays that reads 1 at an index has both operands 1 there. -/
private theorem andi_at {s : Shape} (a b : IVec s 1) (i : s.Idx) (h : andi a b i = 1#1) : a i = 1#1 ∧ b i = 1#1 :=
  IntOp.andi_eq_one.1 h

/-- Under the precondition the node features, both weight matrices and both biases hold real numbers. -/
theorem pre_real (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6)) := by
  -- the precondition on device c, read at the single index of its one-bit result
  have h := congrFun (hpre c) ValueIdx.ix0
  unfold Cert.Pre_finite_inputs.fn Cert.Pre_finite_inputs.fn_part1 at h
  dsimp only at h
  -- it is a left-nested conjunction of seven tests, one per float input, in argument order 0, 3, 4, 5, 6, 7, 8;
  -- peel the last two (arguments 8 and 7, not needed) and keep the other five
  obtain ⟨h, -⟩ := andi_at _ _ _ h
  obtain ⟨h, -⟩ := andi_at _ _ _ h
  obtain ⟨h, h6⟩ := andi_at _ _ _ h
  obtain ⟨h, h5⟩ := andi_at _ _ _ h
  obtain ⟨h, h4⟩ := andi_at _ _ _ h
  obtain ⟨h0, h3⟩ := andi_at _ _ _ h
  exact ⟨allReal_of_all _ _ _ _ _ _ h0, allReal_of_all _ _ _ _ _ _ h3, allReal_of_all _ _ _ _ _ _ h4,
    allReal_of_all _ _ _ _ _ _ h5, allReal_of_all _ _ _ _ _ _ h6⟩

end Cert.Bridge

end
-- ==== Proof.lean ====
/-
  The certificate of a two-layer hypergraph convolution with mean pooling: the kernel's program against its jnp
  reference, equal as functions of the inputs over the extended reals, for finite float inputs and ANY incidence and
  label integers (both programs clamp a gather's start index and drop a scatter's out-of-range update alike).

  The programs differ in two places. Per layer the reference projects every node row (x · W + b) and then
  aggregates rows per hyperedge (a segment sum over the incidences, scaled by the inverse hyperedge degree), while the
  kernel aggregates first and projects the 100000 hyperedge rows in a tiled matrix call, adding the bias gated by
  [degree > 0]: equal by distributivity and n · (1/n) = [n > 0], which is where finiteness is used. And the kernel
  pools by a tiled one-hot contraction of the rectified rows where the reference takes their segment sum per graph.
  Everything else — degrees and their guarded reciprocals, the aggregation back to nodes, the mean and the final
  projection — is the same text in both, carried along unopened.

  The kernel's run (the launch theorem over the program's thirteen segments, with the result buffer kept) ends with
  its result at the reference's last stage of the arguments (`KRead.result_eq`); the reference's run ends at the same
  stage. The frames are the generated ones; the reference's is its run with the result dropped; the idealization
  rewrote nothing.
-/
import proofs.«418423_j6476810682471_2_alg».proof.Defs
import proofs.«418423_j6476810682471_2_alg».proof.Proof.Gen.Kernel
import proofs.«418423_j6476810682471_2_alg».proof.Proof.Gen.Kernel.Skeleton
import proofs.«418423_j6476810682471_2_alg».proof.Proof.Gen.Kernel.Launch
import proofs.«418423_j6476810682471_2_alg».proof.Proof.Gen.Kernel.Points
import proofs.«418423_j6476810682471_2_alg».proof.Proof.Gen.Kernel.Frame
import proofs.«418423_j6476810682471_2_alg».proof.Proof.Gen.KernelIdeal
import proofs.«418423_j6476810682471_2_alg».proof.Proof.Gen.KernelIdeal.Skeleton
import proofs.«418423_j6476810682471_2_alg».proof.Proof.Gen.KernelIdeal.Launch
import proofs.«418423_j6476810682471_2_alg».proof.Proof.Gen.KernelIdeal.Points
import proofs.«418423_j6476810682471_2_alg».proof.Proof.Gen.KernelIdeal.Frame
import proofs.«418423_j6476810682471_2_alg».proof.Proof.Gen.ReferenceIdeal
import proofs.«418423_j6476810682471_2_alg».proof.Proof.Gen.Pre_finite_inputs
import proofs.«418423_j6476810682471_2_alg».proof.Proof.RefSide
import proofs.«418423_j6476810682471_2_alg».proof.Proof.KRun
import proofs.«418423_j6476810682471_2_alg».proof.Proof.KRead
import proofs.«418423_j6476810682471_2_alg».proof.Proof.FinitePre
import Idealize.ShloMosaic.Adequacy
import Idealize.ShloMosaic.Init

noncomputable section

namespace Cert.Proof

open Idealize.ShloMosaic Idealize.ShloMosaic.TcCoe Idealize.SL.Sem

/-- The word-level program runs, faults nowhere and leaves its arguments: the generated frame. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments in their result buffers. -/
theorem algebraic : Cert.algebraic_KernelIdeal_ReferenceIdeal := by
  intro m ρ m' ρ' hpre hagree
  refine ⟨fun c => Cert.KernelIdeal.Gen.W13 (F := Ideal) m ρ c (Proc.devRef .tc Cert.KernelIdeal.main_v104),
    Cert.KernelIdeal.KRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h3, h4, h5, h6⟩ := Cert.Bridge.pre_real m hpre c
  rw [Cert.ReferenceIdeal.ReadP.val_main_v116_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2]
  exact (Cert.KernelIdeal.KRead.result_eq m ρ c h0 h3 h4 h5 h6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
